-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x128 : Shape := ⟨3, ![512, 512, 128]⟩
abbrev S512x512 : Shape := ⟨2, ![512, 512]⟩
abbrev S128x128 : Shape := ⟨2, ![128, 128]⟩
abbrev S_ : Shape := ⟨0, ![]⟩

class Facts : Prop where
  bcast_S_S512x512x128 : S_.BroadcastsInDim S512x512x128 (![] : Fin 0 → Fin S512x512x128.rank)
  reducesTo_S512x512x128_S_d0_1_2 : S512x512x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S512x512x128 .f32) (main_arg1 : IVec S512x512 32) (main_arg2 : IVec S512x512 1) (main_arg3 : FVec F S128x128 .f32) : IVec S_ 1 :=
  let main_v0 : FVec F S512x512x128 .f32 := Host.absf main_arg0
  let main_cst : FVec F S_ .f32 := constant S_ .f32 0x7F800000#32
  let main_v1 : FVec F S512x512x128 .f32 := broadcastInDim S512x512x128 ![] bcast_S_S512x512x128 main_cst
  let main_v2 : IVec S512x512x128 1 := cmpf .olt main_v0 main_v1
  let main_c : IVec S_ 1 := constantI S_ 1 1#1
  let main_v3 : IVec S_ 1 := (fun x v => Host.reduce IntOp.andi x v reducesTo_S512x512x128_S_d0_1_2 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_c_2 : IVec S_ 32 := constantI S_ 32 0#32
  let main_v9 : IVec S512x512 32 := broadcastInDim S512x512 ![] bcast_S_S512x512 main_c_2
  let main_v10 : IVec S512x512 1 := cmpi .sge main_arg1 main_v9
  let main_c_3 : IVec S_ 32 := constantI S_ 32 128#32
  let main_v11 : IVec S512x512 32 := broadcastInDim S512x512 ![] bcast_S_S512x512 main_c_3
  let main_v12 : IVec S512x512 1 := cmpi .slt main_arg1 main_v11
  let main_v13 : IVec S512x512 1 := andi main_v10 main_v12
  let main_c_4 : IVec S_ 1 := constantI S_ 1 1#1
  let main_v14 : IVec S_ 1 := (fun x v => Host.reduce IntOp.andi x v reducesTo_S512x512_S_d0_1 h_S_) main_v13 main_c_4
  let main_v15 : IVec S_ 1 := andi main_v8 main_v14
  main_v15
-- ==== Kernel.lean ====
abbrev S512x512x128 : Shape := ⟨3, ![512, 512, 128]⟩
abbrev S512x512 : Shape := ⟨2, ![512, 512]⟩
abbrev S128x128 : Shape := ⟨2, ![128, 128]⟩
abbrev S16x8x128 : Shape := ⟨3, ![16, 8, 128]⟩
abbrev S32x512x128 : Shape := ⟨3, ![32, 512, 128]⟩
abbrev S32x512 : Shape := ⟨2, ![32, 512]⟩
abbrev S1x8x128 : Shape := ⟨3, ![1, 8, 128]⟩
abbrev S32x512x1 : Shape := ⟨3, ![32, 512, 1]⟩
abbrev S1x32x512 : Shape := ⟨3, ![1, 32, 512]⟩
abbrev S1 : Shape := ⟨1, ![1]⟩
abbrev S1x1x1 : Shape := ⟨3, ![1, 1, 1]⟩
abbrev S16384x128 : Shape := ⟨2, ![16384, 128]⟩
abbrev S1x128x128 : Shape := ⟨3, ![1, 128, 128]⟩
abbrev S16x1x1 : Shape := ⟨3, ![16, 1, 1]⟩
abbrev S16 : Shape := ⟨1, ![16]⟩
abbrev S_ : Shape := ⟨0, ![]⟩

abbrev nBuf : Space → Nat
  | .hbm => 16
  | .vmem => 11
  | .smem => 0
  | _ => 0

abbrev bufTy : (tb : Table) → Fin (tcTables nBuf tb) → BufTy
  | .hbm, ⟨0, _⟩ => ⟨S512x512x128, .f32⟩
  | .hbm, ⟨1, _⟩ => ⟨S512x512, .i32⟩
  | .hbm, ⟨2, _⟩ => ⟨S512x512, .i1⟩
  | .hbm, ⟨3, _⟩ => ⟨S128x128, .f32⟩
  | .hbm, ⟨4, _⟩ => ⟨S512x512, .f32⟩
  | .hbm, ⟨5, _⟩ => ⟨S16x8x128, .f32⟩
  | .hbm, ⟨6, _⟩ => ⟨S16x8x128, .f32⟩
  | .hbm, ⟨7, _⟩ => ⟨S16x1x1, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S16x1x1, .f32⟩
  | .hbm, ⟨12, _⟩ => ⟨S16, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S32x512x128, .f32⟩
  | .local _ .vmem, ⟨1, _⟩ => ⟨S32x512x128, .f32⟩
  | .local _ .vmem, ⟨2, _⟩ => ⟨S32x512, .i32⟩
  | .local _ .vmem, ⟨3, _⟩ => ⟨S32x512, .i32⟩
  | .local _ .vmem, ⟨4, _⟩ => ⟨S32x512, .f32⟩
  | .local _ .vmem, ⟨5, _⟩ => ⟨S32x512, .f32⟩
  | .local _ .vmem, ⟨6, _⟩ => ⟨S128x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | _, _ => ⟨S512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S32x512x128_S32x512x128_0_0_0 : ∀ a, (![0, 0, 0] : Fin 3 → Nat) a + S32x512x128.size a ≤ S32x512x128.size a
  h_S32x512x128 : 0 < S32x512x128.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S128x128_S128x128_0_0 : ∀ a, (![0, 0] : Fin 2 → Nat) a + S128x128.size a ≤ S128x128.size a
  h_S128x128 : 0 < S128x128.numel
  iota_S32x512x128_d2_w32 : S32x512x128.Iotas .tc 32 [2]
  shapeCasts_S32x512_S32x512x1 : S32x512.ShapeCasts S32x512x1
  broadcasts_S32x512x1_S32x512x128 : S32x512x1.Broadcasts S32x512x128
  reduces_S32x512x128_S32x512 : S32x512x128.Reduces [2] S32x512
  shapeCasts_S32x512_S1x32x512 : S32x512.ShapeCasts S1x32x512
  reduces_S1x32x512_S1 : S1x32x512.Reduces [1, 2] S1
  shapeCasts_S1_S1x1x1 : S1.ShapeCasts S1x1x1
  inpos_S1x1x1_p0_0_0 : ∀ a, (![0, 0, 0] : Fin 3 → Nat) a < S1x1x1.size a
  rotates_S32x512_d1 : S32x512.Rotates 1 none
  iota_S32x512_d1_w32 : S32x512.Iotas .tc 32 [1]
  natLt_1_32 : 1 < 32
  bitsLt_bf16_f32 : FTy.bits .bf16 < FTy.bits .f32
  shapeCasts_S32x512x128_S16384x128 : S32x512x128.ShapeCasts S16384x128
  shapeCasts_S128x128_S1x128x128 : S128x128.ShapeCasts S1x128x128
  reduces_S1x128x128_S1 : S1x128x128.Reduces [1, 2] S1
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  dot_S16384x128_S16384x128_S128x128_0_0_1_1_n_n_wf : DotDims.WF S16384x128 S16384x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x128.size a ≤ S512x512x128.size a
  hwx0_0 : ∀ i : grid0.Coords, EltTy.bits .f32 = 32 ∨ (Rect.block (s := S512x512x128) S32x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S512x512.size a
  hwx0_1 : ∀ i : grid0.Coords, EltTy.bits .i32 = 32 ∨ (Rect.block (s := S512x512) S32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S512x512.size a
  hwx0_2 : ∀ i : grid0.Coords, EltTy.bits .f32 = 32 ∨ (Rect.block (s := S512x512) S32x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S16x8x128.size a
  hwx0_5 : ∀ i : grid0.Coords, EltTy.bits .f32 = 32 ∨ (Rect.block (s := S16x8x128) S1x8x128.size (cc0_transform_5 i) (hinb0_5 i)).WholeWords (EltTy.packing .f32)

variable [Facts₀]

def dot_S16384x128_S16384x128_S128x128_0_0_1_1_n_n : DotDims S16384x128 S16384x128 S128x128 where
  lhsContracting := [0]
  rhsContracting := [0]
  lhsNonContracting := [1]
  rhsNonContracting := [1]
  lhsBatch := []
  rhsBatch := []
  wf := dot_S16384x128_S16384x128_S128x128_0_0_1_1_n_n_wf

abbrev win0_0 : Pipeline.Window sig grid0 :=
  Pipeline.Window.ofSpec (Memref.whole main_arg0) S32x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x512x128 : Shape := ⟨3, ![512, 512, 128]⟩
abbrev S512x512 : Shape := ⟨2, ![512, 512]⟩
abbrev S128x128 : Shape := ⟨2, ![128, 128]⟩
abbrev S512x512x1 : Shape := ⟨3, ![512, 512, 1]⟩
abbrev S_ : Shape := ⟨0, ![]⟩
abbrev S512x512x1x1 : Shape := ⟨4, ![512, 512, 1, 1]⟩
abbrev S1 : Shape := ⟨1, ![1]⟩
abbrev S1x1x1x1 : Shape := ⟨4, ![1, 1, 1, 1]⟩
abbrev S512x511 : Shape := ⟨2, ![512, 511]⟩
abbrev S512x511x1 : Shape := ⟨3, ![512, 511, 1]⟩
abbrev S512x511x2 : Shape := ⟨3, ![512, 511, 2]⟩

abbrev nBuf : Space → Nat
  | .hbm => 62
  | .vmem => 0
  | .smem => 0
  | _ => 0

abbrev bufTy : (tb : Table) → Fin (tcTables nBuf tb) → BufTy
  | .hbm, ⟨0, _⟩ => ⟨S512x512x128, .f32⟩
  | .hbm, ⟨1, _⟩ => ⟨S512x512, .i32⟩
  | .hbm, ⟨2, _⟩ => ⟨S512x512, .i1⟩
  | .hbm, ⟨3, _⟩ => ⟨S128x128, .f32⟩
  | .hbm, ⟨4, _⟩ => ⟨S512x512, .f32⟩
  | .hbm, ⟨5, _⟩ => ⟨S512x512x1, .i32⟩
  | .hbm, ⟨6, _⟩ => ⟨S_, .i32⟩
  | .hbm, ⟨7, _⟩ => ⟨S512x512x1, .i32⟩
  | .hbm, ⟨8, _⟩ => ⟨S512x512x1, .i1⟩
  | .hbm, ⟨9, _⟩ => ⟨S_, .i32⟩
  | .hbm, ⟨10, _⟩ => ⟨S512x512x1, .i32⟩
  | .hbm, ⟨11, _⟩ => ⟨S512x512x1, .i32⟩
  | .hbm, ⟨12, _⟩ => ⟨S512x512x1, .i32⟩
  | .hbm, ⟨13, _⟩ => ⟨S512x512x1x1, .i32⟩
  | .hbm, ⟨14, _⟩ => ⟨S1, .i32⟩
  | .hbm, ⟨15, _⟩ => ⟨S_, .i32⟩
  | .hbm, ⟨16, _⟩ => ⟨S512x512x1x1, .i32⟩
  | .hbm, ⟨17, _⟩ => ⟨S512x512x1x1, .i1⟩
  | .hbm, ⟨18, _⟩ => ⟨S1x1x1x1, .i32⟩
  | .hbm, ⟨19, _⟩ => ⟨S512x512x1x1, .i32⟩
  | .hbm, ⟨20, _⟩ => ⟨S512x512x1x1, .i1⟩
  | .hbm, ⟨21, _⟩ => ⟨S512x512x1x1, .i1⟩
  | .hbm, ⟨22, _⟩ => ⟨S_, .i1⟩
  | .hbm, ⟨23, _⟩ => ⟨S512x512x1, .i1⟩
  | .hbm, ⟨24, _⟩ => ⟨S512x512x1, .f32⟩
  | .hbm, ⟨25, _⟩ => ⟨S_, .f32⟩
  | .hbm, ⟨26, _⟩ => ⟨S512x512x1, .f32⟩
  | .hbm, ⟨27, _⟩ => ⟨S512x512x1, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S_, .f32⟩
  | .hbm, ⟨32, _⟩ => ⟨S512x511, .f32⟩
  | .hbm, ⟨33, _⟩ => ⟨S512x511, .f32⟩
  | .hbm, ⟨34, _⟩ => ⟨S512x511, .f32⟩
  | .hbm, ⟨35, _⟩ => ⟨S512x511, .i32⟩
  | .hbm, ⟨36, _⟩ => ⟨S512x511, .i32⟩
  | .hbm, ⟨37, _⟩ => ⟨S_, .i32⟩
  | .hbm, ⟨38, _⟩ => ⟨S512x511, .i32⟩
  | .hbm, ⟨39, _⟩ => ⟨S512x511, .i1⟩
  | .hbm, ⟨40, _⟩ => ⟨S_, .i32⟩
  | .hbm, ⟨41, _⟩ => ⟨S512x511, .i32⟩
  | .hbm, ⟨42, _⟩ => ⟨S512x511, .i32⟩
  | .hbm, ⟨43, _⟩ => ⟨S512x511, .i32⟩
  | .hbm, ⟨44, _⟩ => ⟨S_, .i32⟩
  | .hbm, ⟨45, _⟩ => ⟨S512x511, .i32⟩
  | .hbm, ⟨46, _⟩ => ⟨S512x511, .i1⟩
  | .hbm, ⟨47, _⟩ => ⟨S_, .i32⟩
  | .hbm, ⟨48, _⟩ => ⟨S512x511, .i32⟩
  | .hbm, ⟨49, _⟩ => ⟨S512x511, .i32⟩
  | .hbm, ⟨50, _⟩ => ⟨S512x511, .i32⟩
  | .hbm, ⟨51, _⟩ => ⟨S512x511x1, .i32⟩
  | .hbm, ⟨52, _⟩ => ⟨S512x511x1, .i32⟩
  | .hbm, ⟨53, _⟩ => ⟨S512x511x2, .i32⟩
  | .hbm, ⟨54, _⟩ => ⟨S512x511, .f32⟩
  | .hbm, ⟨55, _⟩ => ⟨S512x511, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩

abbrev nD : Nat := 1
abbrev τ : Topo := Topo.v7x

variable {F : FTy → Type} [FloatOps F]

class Facts₀ : Prop where
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  shapeCasts_S512x512x1_S512x512x1x1 : S512x512x1.ShapeCasts S512x512x1x1
  bcast_S_S512x512x1x1 : S_.BroadcastsInDim S512x512x1x1 (![] : Fin 0 → Fin S512x512x1x1.rank)
  bcast_S1_S1x1x1x1_3 : S1.BroadcastsInDim S1x1x1x1 (![3] : Fin 1 → Fin S1x1x1x1.rank)
  bcast_S1x1x1x1_S512x512x1x1_0_1_2_3 : S1x1x1x1.BroadcastsInDim S512x512x1x1 (![0, 1, 2, 3] : Fin 4 → Fin S512x512x1x1.rank)
  reducesTo_S512x512x1x1_S512x512x1_d3 : S512x512x1x1.ReducesTo [3] S512x512x1
  h_S_ : 0 < S_.numel
  shapeCasts_S512x512x1_S512x512 : S512x512x1.ShapeCasts S512x512
  reducesTo_S512x512_S_d0_1 : S512x512.ReducesTo [0, 1] S_
  slices_S512x512_S512x511_0_1 : S512x512.Slices ![0, 1] S512x511
  slices_S512x512_S512x511_0_0 : S512x512.Slices ![0, 0] S512x511
  bcast_S_S512x511 : S_.BroadcastsInDim S512x511 (![] : Fin 0 → Fin S512x511.rank)
  bcast_S512x511_S512x511x1_0_1 : S512x511.BroadcastsInDim S512x511x1 (![0, 1] : Fin 2 → Fin S512x511x1.rank)
  concatenates_S512x511x1_S512x511x1_S512x511x2_d2 : Shape.Concatenates [S512x511x1, S512x511x1] S512x511x2 2
  reducesTo_S512x511_S_d0_1 : S512x511.ReducesTo [0, 1] S_
  gather_S512x512x128_S512x512x1x1_S512x512x1_n_2_01_01_2_3_111_wf : GatherDims.WF S512x512x128 S512x512x1x1 S512x512x1 [] [2] [0, 1] [2] [0, 1] 3 ![1, 1, 1]
  gather_S128x128_S512x511x2_S512x511_n_01_n_n_01_2_11_wf : GatherDims.WF S128x128 S512x511x2 S512x511 [] [0, 1] [] [0, 1] [] 2 ![1, 1]

variable [Facts₀]

def gather_S512x512x128_S512x512x1x1_S512x512x1_n_2_01_01_2_3_111 : GatherDims S512x512x128 S512x512x1x1 S512x512x1 where
  offsetDims := []
  collapsedSliceDims := [2]
  operandBatchingDims := [0, 1]
  startIndicesBatchingDims := [0, 1]
  startIndexMap := [2]
  indexVectorDim := 3
  sliceSizes := ![1, 1, 1]
  wf := gather_S512x512x128_S512x512x1x1_S512x512x1_n_2_01_01_2_3_111_wf
def gather_S128x128_S512x511x2_S512x511_n_01_n_n_01_2_11 : GatherDims S128x128 S512x511x2 S512x511 where
  offsetDims := []
  collapsedSliceDims := [0, 1]
  operandBatchingDims := []
  startIndicesBatchingDims := []
  startIndexMap := [0, 1]
  indexVectorDim := 2
  sliceSizes := ![1, 1]
  wf := gather_S128x128_S512x511x2_S512x511_n_01_n_n_01_2_11_wf

class Facts : Prop extends Facts₀ where

variable [Facts]
-- ==== Proof.Spec.lean ====
/-
  The score of a batch of tag paths under a linear-chain CRF, as sums over the extended reals.

  For emissions `E[b, s, j]`, tag words `tg[b, s]`, a 0/1 mask `mf[b, s]` already read as numbers and a
  transition table `tr[k, j]`:
    emitTotal  = Σ_b Σ_s  E[b, s, tag b s] · mf[b, s]
    transTotal = Σ_b Σ_{s < 511}  tr[tag b s, tag b (s+1)] · (mf[b, s+1] · mf[b, s])
    maskTotal  = Σ_b Σ_s  mf[b, s]
  and the score is (emitTotal + transTotal) / maskTotal.  The same three sums over ONE tile of 32 batch rows are
  `emitTile`, `transTile`, `maskTile`; the batch axis is the disjoint union of 16 such tiles, so each total is the
  sum of its tiles.  Two laws do the work on the kernel's side: a sum against a one-hot selector picks one term, and
  a count matrix  C[k, j] = Σ_r p_r · [a_r = k] · [c_r = j]  contracted with a table is  Σ_r p_r · tr[a_r, c_r]
  (for weights p_r ≥ 0, where multiplication distributes over the sum on the extended reals).
-/
import Idealize.ShloMosaic.PureOps
import Idealize.ShloMosaic.PureOps.Ideal
import Idealize.ShloMosaic.Lib.ValueIdx

noncomputable section

namespace Cert.Crf

open Idealize.ShloMosaic Idealize.ShloMosaic.ValueIdx

/-- A tag word read as a lane number of the 128-wide tag axis. -/
def tagOf (w : BitVec 32) : Fin 128 := ⟨w.toNat % 128, Nat.mod_lt _ (by decide)⟩

theorem tagOf_val_of_lt (w : BitVec 32) (h : w.toNat < 128) : (tagOf w).val = w.toNat :=
  Nat.mod_eq_of_lt h

/-! ## The three sums over the whole batch -/

section Whole

variable (E : FVec Ideal ⟨3, ![512, 512, 128]⟩ .f32) (tg : IVec ⟨2, ![512, 512]⟩ 32)
  (mf : FVec Ideal ⟨2, ![512, 512]⟩ .f32) (tr : FVec Ideal ⟨2, ![128, 128]⟩ .f32)

/-- The emission score: at every position the emission of the position's own tag, where the mask is set. -/
def emitTotal : EReal :=
  ∑ b : Fin 512, ∑ s : Fin 512, E (ix3 b s (tagOf (tg (ix2 b s)))) * mf (ix2 b s)

/-- The transition score: for every adjacent pair of positions, the table's entry at (previous tag, tag), where both
    positions' masks are set. -/
def transTotal : EReal :=
  ∑ b : Fin 512, ∑ s : Fin 511,
    tr (ix2 (tagOf (tg (ix2 b s.castSucc))) (tagOf (tg (ix2 b s.succ)))) * (mf (ix2 b s.succ) * mf (ix2 b s.castSucc))

/-- The number of set mask positions. -/
def maskTotal : EReal := ∑ b : Fin 512, ∑ s : Fin 512, mf (ix2 b s)

/-- The score: the host's quotient of the two totals (never opened: both programs end in it). -/
def score : FVec Ideal ⟨0, ![]⟩ .f32 :=
  Host.divf (F := Ideal) (fun _ => emitTotal E tg mf + transTotal tg mf tr) (fun _ => maskTotal mf)

end Whole

/-! ## The same sums over one tile of 32 batch rows -/

section Tile

variable (x0 : FVec Ideal ⟨3, ![32, 512, 128]⟩ .f32) (x1 : IVec ⟨2, ![32, 512]⟩ 32)
  (x2 : FVec Ideal ⟨2, ![32, 512]⟩ .f32) (x3 : FVec Ideal ⟨2, ![128, 128]⟩ .f32)

def emitTile : EReal :=
  ∑ b : Fin 32, ∑ s : Fin 512, x0 (ix3 b s (tagOf (x1 (ix2 b s)))) * x2 (ix2 b s)

def transTile : EReal :=
  ∑ b : Fin 32, ∑ s : Fin 511,
    x3 (ix2 (tagOf (x1 (ix2 b s.castSucc))) (tagOf (x1 (ix2 b s.succ)))) * (x2 (ix2 b s.succ) * x2 (ix2 b s.castSucc))

def maskTile : EReal := ∑ b : Fin 32, ∑ s : Fin 512, x2 (ix2 b s)

end Tile

/-! ## Tiles of the batch axis -/

/-- Row `b` of tile `t` is batch row `32 t + b`. -/
def rowOf (t : Fin 16) (b : Fin 32) : Fin 512 := ⟨32 * t.val + b.val, by have := t.isLt; have := b.isLt; omega⟩

/-- Tile `t` of a [512, 512, 128] array: its 32 batch rows from row `32 t`. -/
def blkE {α : Type} (A : (⟨3, ![512, 512, 128]⟩ : Shape).Idx → α) (t : Fin 16) : (⟨3, ![32, 512, 128]⟩ : Shape).Idx → α :=
  fun y => A (ix3 (rowOf t ⟨(y 0).val, (y 0).isLt⟩) ⟨(y 1).val, (y 1).isLt⟩ ⟨(y 2).val, (y 2).isLt⟩)

/-- Tile `t` of a [512, 512] array. -/
def blkT {α : Type} (A : (⟨2, ![512, 512]⟩ : Shape).Idx → α) (t : Fin 16) : (⟨2, ![32, 512]⟩ : Shape).Idx → α :=
  fun y => A (ix2 (rowOf t ⟨(y 0).val, (y 0).isLt⟩) ⟨(y 1).val, (y 1).isLt⟩)

/-- The 512 batch rows are the 16 tiles of 32 rows: a sum over the rows is the sum over the tiles of the sums over a
    tile's rows (row `32 t + b` is the image of `(t, b)` under the bijection Fin 16 × Fin 32 ≃ Fin 512). -/
private theorem sum_rows {M : Type*} [AddCommMonoid M] (f : Fin 512 → M) :
    ∑ r : Fin 512, f r = ∑ t : Fin 16, ∑ b : Fin 32, f (rowOf t b) := by
  have he : ∀ x : Fin 16 × Fin 32, (finProdFinEquiv (m := 16) (n := 32) x : Fin 512) = rowOf x.1 x.2 := by
    intro x
    apply Fin.ext
    show x.2.val + 32 * x.1.val = 32 * x.1.val + x.2.val
    exact Nat.add_comm _ _
  refine (Equiv.sum_comp (finProdFinEquiv (m := 16) (n := 32) : Fin 16 × Fin 32 ≃ Fin 512) f).symm.trans ?_
  refine (Fintype.sum_prod_type _).trans ?_
  refine Finset.sum_congr rfl fun t _ => Finset.sum_congr rfl fun b _ => ?_
  exact congrArg f (he (t, b))

section TilesOfWhole

variable (E : FVec Ideal ⟨3, ![512, 512, 128]⟩ .f32) (tg : IVec ⟨2, ![512, 512]⟩ 32)
  (mf : FVec Ideal ⟨2, ![512, 512]⟩ .f32) (tr : FVec Ideal ⟨2, ![128, 128]⟩ .f32)

/-- Each total is the sum of its 16 tiles: the batch rows are the disjoint union of the tiles' rows. -/
theorem emitTotal_eq_tiles : emitTotal E tg mf = ∑ t : Fin 16, emitTile (blkE E t) (blkT tg t) (blkT mf t) := by
  unfold emitTotal emitTile
  refine (sum_rows _).trans ?_
  refine Finset.sum_congr rfl fun t _ => Finset.sum_congr rfl fun b _ => ?_
  beta_reduce
  refine Finset.sum_congr rfl fun s _ => ?_
  -- row `b` of tile `t` read through the tile is row `32 t + b` of the whole array
  rfl

theorem transTotal_eq_tiles : transTotal tg mf tr = ∑ t : Fin 16, transTile (blkT tg t) (blkT mf t) tr := by
  unfold transTotal transTile
  refine (sum_rows _).trans ?_
  refine Finset.sum_congr rfl fun t _ => Finset.sum_congr rfl fun b _ => ?_
  beta_reduce
  refine Finset.sum_congr rfl fun s _ => ?_
  rfl

theorem maskTotal_eq_tiles : maskTotal mf = ∑ t : Fin 16, maskTile (blkT mf t) := by
  unfold maskTotal maskTile
  refine (sum_rows _).trans ?_
  refine Finset.sum_congr rfl fun t _ => Finset.sum_congr rfl fun b _ => ?_
  beta_reduce
  refine Finset.sum_congr rfl fun s _ => ?_
  rfl

end TilesOfWhole

/-! ## The two laws -/

/-- A sum against a one-hot selector picks the selected term. -/
theorem sum_onehot {n : Nat} (f : Fin n → EReal) (a : Fin n) : ∑ j : Fin n, (if j = a then f j else 0) = f a :=
  (Finset.sum_ite_eq' Finset.univ a f).trans (if_pos (Finset.mem_univ a))

/-- On the extended reals multiplication distributes over a finite sum of non-negative terms. -/
private theorem sum_mul_of_nonneg {R : Type*} (s : Finset R) (x : R → EReal) (hx : ∀ r, 0 ≤ x r) (c : EReal) :
    (∑ r ∈ s, x r) * c = ∑ r ∈ s, x r * c := by
  classical
  induction s using Finset.induction_on with
  | empty => rw [Finset.sum_empty, Finset.sum_empty, zero_mul]
  | insert a s ha ih =>
    rw [Finset.sum_insert ha, Finset.sum_insert ha,
      EReal.right_distrib_of_nonneg (hx a) (Finset.sum_nonneg fun r _ => hx r), ih]

/-- A non-negative weight times two 0/1 selectors is non-negative. -/
private theorem sel_nonneg (x : EReal) (hx : 0 ≤ x) (P Q : Prop) [Decidable P] [Decidable Q] :
    0 ≤ (x * (if P then (1 : EReal) else 0)) * (if Q then (1 : EReal) else 0) := by
  by_cases hP : P <;> by_cases hQ : Q
  · rw [if_pos hP, if_pos hQ, mul_one, mul_one]; exact hx
  · rw [if_neg hQ, mul_zero]
  · rw [if_neg hP, mul_zero, zero_mul]
  · rw [if_neg hQ, mul_zero]

/-- For one pair (a, c) the double sum against the two selectors has the single non-zero term at (k, j) = (a, c). -/
private theorem pick_pair (x : EReal) (a c : Fin 128) (tr : Fin 128 → Fin 128 → EReal) :
    ∑ k : Fin 128, ∑ j : Fin 128,
        (x * (if a = k then (1 : EReal) else 0)) * (if c = j then (1 : EReal) else 0) * tr k j = x * tr a c := by
  rw [Finset.sum_eq_single a]
  · rw [Finset.sum_eq_single c]
    · rw [if_pos rfl, if_pos rfl, mul_one, mul_one]
    · intro j _ hj
      rw [if_neg (Ne.symm hj), mul_zero, zero_mul]
    · intro h; exact absurd (Finset.mem_univ _) h
  · intro k _ hk
    refine Finset.sum_eq_zero fun j _ => ?_
    rw [if_neg (Ne.symm hk), mul_zero, zero_mul, zero_mul]
  · intro h; exact absurd (Finset.mem_univ _) h

/-- The count matrix of weighted (previous, current) pairs contracted with a table is the weighted sum of the table's
    entries at the pairs, for non-negative weights. -/
theorem count_matrix {R : Type} [Fintype R] (p : R → EReal) (hp : ∀ r, 0 ≤ p r) (a c : R → Fin 128)
    (tr : Fin 128 → Fin 128 → EReal) :
    ∑ k : Fin 128, ∑ j : Fin 128,
        (∑ r : R, (p r * (if a r = k then (1 : EReal) else 0)) * (if c r = j then (1 : EReal) else 0)) * tr k j
      = ∑ r : R, p r * tr (a r) (c r) := by
  -- distribute the table's entry over the (non-negative) terms of the count, bring the sum over r outside, and for
  -- each r keep the one term (k, j) = (a r, c r)
  calc ∑ k : Fin 128, ∑ j : Fin 128,
        (∑ r : R, (p r * (if a r = k then (1 : EReal) else 0)) * (if c r = j then (1 : EReal) else 0)) * tr k j
      = ∑ k : Fin 128, ∑ j : Fin 128, ∑ r : R,
          (p r * (if a r = k then (1 : EReal) else 0)) * (if c r = j then (1 : EReal) else 0) * tr k j :=
        Finset.sum_congr rfl fun k _ => Finset.sum_congr rfl fun j _ =>
          sum_mul_of_nonneg Finset.univ _ (fun r => sel_nonneg (p r) (hp r) _ _) (tr k j)
    _ = ∑ k : Fin 128, ∑ r : R, ∑ j : Fin 128,
          (p r * (if a r = k then (1 : EReal) else 0)) * (if c r = j then (1 : EReal) else 0) * tr k j :=
        Finset.sum_congr rfl fun k _ => Finset.sum_comm
    _ = ∑ r : R, ∑ k : Fin 128, ∑ j : Fin 128,
          (p r * (if a r = k then (1 : EReal) else 0)) * (if c r = j then (1 : EReal) else 0) * tr k j :=
        Finset.sum_comm
    _ = ∑ r : R, p r * tr (a r) (c r) :=
        Finset.sum_congr rfl fun r _ => pick_pair (p r) (a r) (c r) tr

end Cert.Crf

end
-- ==== Proof.KArr.lean ====
/-
  The kernel's two output arrays after the region, and the blocks its body loads, at the ideal values.

  Grid point t loads tile t of emissions, tags and mask (32 batch rows from row 32 t) and the whole transition table, and
  writes block t (one [1, 8, 128] slab) of each output.  The 16 slabs tile the [16, 8, 128] outputs, so after the run
  each output array holds, at (t, r, l), what point t's body stored at (0, r, l).
-/
import proofs.«431321_j35562329211832_2_alg».proof.Proof.Gen.KernelIdeal.Frame
import proofs.«431321_j35562329211832_2_alg».proof.Proof.Spec
import Idealize.ShloMosaic.Lib.ValueIdx
import Idealize.ShloMosaic.Lib.Pipeline.Value
import Idealize.ShloMosaic.Lib.StableHlo.Run

noncomputable section

namespace Cert.KernelIdeal.CrfK

open Cert.KernelIdeal Cert.KernelIdeal.Gen Cert.Crf Idealize.ShloMosaic Idealize.ShloMosaic.TcCoe Idealize.ShloMosaic.ValueIdx
open Idealize.SL.Sem

variable (m : (ℓ : Loc nD τ sig) → Buf (Elt Ideal) ℓ)

/-- Grid point number `t`. -/
def pt (t : Fin 16) : Fin cfg0.N := ⟨t.val, by rw [show cfg0.N = 16 from N_0]; exact t.isLt⟩

/-- The blocks the body loads at a point, each at its literal type. -/
abbrev eblk (c : Dev nD) (t : Fin cfg0.N) : Vec Ideal S32x512x128 .f32 := iblk m c 0 t
abbrev tblk (c : Dev nD) (t : Fin cfg0.N) : Vec Ideal S32x512 .i32 := iblk m c 1 t
abbrev mblk (c : Dev nD) (t : Fin cfg0.N) : Vec Ideal S32x512 .f32 := iblk m c 2 t
abbrev rblk (c : Dev nD) (t : Fin cfg0.N) : Vec Ideal S128x128 .f32 := iblk m c 3 t

/-- The argument arrays as launched, each at its literal type. -/
abbrev argE (c : Dev nD) : FVec Ideal S512x512x128 .f32 := m ((c.tc : Thread nD τ).loc main_arg0)
abbrev argT (c : Dev nD) : IVec S512x512 32 := m ((c.tc : Thread nD τ).loc main_arg1)
abbrev argM (c : Dev nD) : IVec S512x512 1 := m ((c.tc : Thread nD τ).loc main_arg2)
abbrev argR (c : Dev nD) : FVec Ideal S128x128 .f32 := m ((c.tc : Thread nD τ).loc main_arg3)

/-- The mask as the region finds it: the host converted it to numbers before the call. -/
abbrev maskF (c : Dev nD) : FVec Ideal S512x512 .f32 := uitofp (F := Ideal) .f32 (argM m c)

/-! ## The index maps, decided once over the grid -/

private theorem idxE : ∀ t : Fin cfg0.N, win0_0.index t (0 : Fin 3) = t.val ∧ win0_0.index t (1 : Fin 3) = 0
    ∧ win0_0.index t (2 : Fin 3) = 0 :=
  (by decide +kernel : ∀ t : Fin grid0.N, win0_0.index t (0 : Fin 3) = t.val ∧ win0_0.index t (1 : Fin 3) = 0
    ∧ win0_0.index t (2 : Fin 3) = 0)

private theorem idxT : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

private theorem idxM : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

private theorem idxR : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

private theorem idx4 : ∀ t : Fin cfg0.N, win0_4.index t (0 : Fin 3) = t.val ∧ win0_4.index t (1 : Fin 3) = 0
    ∧ win0_4.index t (2 : Fin 3) = 0 :=
  (by decide +kernel : ∀ t : Fin grid0.N, win0_4.index t (0 : Fin 3) = t.val ∧ win0_4.index t (1 : Fin 3) = 0
    ∧ win0_4.index t (2 : Fin 3) = 0)

private theorem idx5 : ∀ t : Fin cfg0.N, win0_5.index t (0 : Fin 3) = t.val ∧ win0_5.index t (1 : Fin 3) = 0
    ∧ win0_5.index t (2 : Fin 3) = 0 :=
  (by decide +kernel : ∀ t : Fin grid0.N, win0_5.index t (0 : Fin 3) = t.val ∧ win0_5.index t (1 : Fin 3) = 0
    ∧ win0_5.index t (2 : Fin 3) = 0)

private theorem pt_val (t : Fin 16) : (pt t).val = t.val := rfl

/-- Point t's blocks are tile t of the arguments. -/
theorem eblk_eq (c : Dev nD) (t : Fin 16) : eblk m c (pt t) = blkE (argE m c) t := by
  obtain ⟨e0, e1, e2⟩ := idxE (pt t)
  have ht := pt_val t
  funext y
  show V m c main_arg0 (((cfg0.win 0).blk (pt t)).view.emb y) = _
  rw [V_main_arg0 m c]
  show argE m c (((cfg0.win 0).blk (pt t)).view.emb y) = argE m c _
  refine congrArg (argE m c) ?_
  funext a; apply Fin.ext
  match a with
  | ⟨0, _⟩ =>
    show win0_0.index (pt t) (0 : Fin 3) * 32 + 1 * (y 0).val = 32 * t.val + (y 0).val
    omega
  | ⟨1, _⟩ =>
    show win0_0.index (pt t) (1 : Fin 3) * 512 + 1 * (y 1).val = (y 1).val
    omega
  | ⟨2, _⟩ =>
    show win0_0.index (pt t) (2 : Fin 3) * 128 + 1 * (y 2).val = (y 2).val
    omega

theorem tblk_eq (c : Dev nD) (t : Fin 16) : tblk m c (pt t) = blkT (argT m c) t := by
  obtain ⟨e0, e1⟩ := idxT (pt t)
  have ht := pt_val t
  funext y
  show V m c main_arg1 (((cfg0.win 1).blk (pt t)).view.emb y) = _
  rw [V_main_arg1 m c]
  show argT m c (((cfg0.win 1).blk (pt t)).view.emb y) = argT m c _
  refine congrArg (argT m c) ?_
  funext a; apply Fin.ext
  match a with
  | ⟨0, _⟩ =>
    show win0_1.index (pt t) (0 : Fin 2) * 32 + 1 * (y 0).val = 32 * t.val + (y 0).val
    omega
  | ⟨1, _⟩ =>
    show win0_1.index (pt t) (1 : Fin 2) * 512 + 1 * (y 1).val = (y 1).val
    omega

/-- The mask array as the region finds it: the host's conversion of the launched mask. -/
private theorem V_mask (c : Dev nD) :
    (V m c main_v0 : S512x512.Idx → Ideal .f32) = uitofp (F := Ideal) .f32 (m ((c.tc : Thread nD τ).loc main_arg2)) := by
  dsimp only [Gen.V, Gen.V0]
  simp only [Gen.hostOps0, List.flatten_cons, List.flatten_nil, List.append_nil]
  after_results

theorem mblk_eq (c : Dev nD) (t : Fin 16) : mblk m c (pt t) = blkT (maskF m c) t := by
  obtain ⟨e0, e1⟩ := idxM (pt t)
  have ht := pt_val t
  funext y
  show (V m c main_v0 : S512x512.Idx → Ideal .f32) (((cfg0.win 2).blk (pt t)).view.emb y) = _
  rw [V_mask m c]
  show maskF m c (((cfg0.win 2).blk (pt t)).view.emb y) = maskF m c _
  refine congrArg (maskF m c) ?_
  funext a; apply Fin.ext
  match a with
  | ⟨0, _⟩ =>
    show win0_2.index (pt t) (0 : Fin 2) * 32 + 1 * (y 0).val = 32 * t.val + (y 0).val
    omega
  | ⟨1, _⟩ =>
    show win0_2.index (pt t) (1 : Fin 2) * 512 + 1 * (y 1).val = (y 1).val
    omega

theorem rblk_eq (c : Dev nD) (t : Fin 16) : rblk m c (pt t) = argR m c := by
  obtain ⟨e0, e1⟩ := idxR (pt t)
  funext y
  show V m c main_arg3 (((cfg0.win 3).blk (pt t)).view.emb y) = _
  rw [V_main_arg3 m c]
  show argR m c (((cfg0.win 3).blk (pt t)).view.emb y) = argR m c y
  refine congrArg (argR m c) ?_
  funext a; apply Fin.ext
  match a with
  | ⟨0, _⟩ =>
    show win0_3.index (pt t) (0 : Fin 2) * 128 + 1 * (y 0).val = (y 0).val
    omega
  | ⟨1, _⟩ =>
    show win0_3.index (pt t) (1 : Fin 2) * 128 + 1 * (y 1).val = (y 1).val
    omega

/-- What point t's body stores into the two output blocks, over the point's loaded blocks. -/
def scoreBlk (c : Dev nD) (t : Fin 16) : Vec Ideal S1x8x128 .f32 :=
  k0_pay1 (F := Ideal) (k0_pay5 (F := Ideal) (eblk m c (pt t)) (tblk m c (pt t)) (mblk m c (pt t)))
    (k0_pay6 (F := Ideal) (tblk m c (pt t)) (mblk m c (pt t)) (rblk m c (pt t)))

def maskBlk (c : Dev nD) (t : Fin 16) : Vec Ideal S1x8x128 .f32 :=
  k0_pay2 (F := Ideal) (k0_pay3 (F := Ideal) (mblk m c (pt t)))

private theorem hz3 : (![0, 0, 0] : Fin 3 → Nat) = fun _ => 0 := funext fun a => by fin_cases a <;> rfl
private theorem hz2 : (![0, 0] : Fin 2 → Nat) = fun _ => 0 := funext fun a => by fin_cases a <;> rfl

/-- Slab q of output 4 at a point's block index is what the point stored there. -/
private theorem scoreBlk_at (c : Dev nD) (t : Fin cfg0.N) (hN : t.val < 16) (i : S16x8x128.Idx) (j : S1x8x128.Idx)
    (h0 : (i 0).val = t.val) (h1 : (i 1).val = (j 1).val) (h2 : (i 2).val = (j 2).val) :
    scoreBlk m c ⟨(i 0).val, (i 0).isLt⟩ (ix3 (0 : Fin 1) ⟨(i 1).val, (i 1).isLt⟩ ⟨(i 2).val, (i 2).isLt⟩)
      = k0_pay1 (F := Ideal) (k0_pay5 (F := Ideal) (iblk m c 0 t) (iblk m c 1 t) (iblk m c 2 t))
          (k0_pay6 (F := Ideal) (iblk m c 1 t) (iblk m c 2 t) (iblk m c 3 t)) j := by
  have hq : (⟨(i 0).val, (i 0).isLt⟩ : Fin 16) = ⟨t.val, hN⟩ := Fin.ext h0
  have hj : ix3 (0 : Fin 1) ⟨(i 1).val, (i 1).isLt⟩ ⟨(i 2).val, (i 2).isLt⟩ = j := by
    funext a; apply Fin.ext
    match a with
    | ⟨0, _⟩ =>
      show (0 : Nat) = (j 0).val
      have hj0 : (j 0).val < 1 := (j 0).isLt
      omega
    | ⟨1, _⟩ => exact h1
    | ⟨2, _⟩ => exact h2
  have hpt : pt ⟨t.val, hN⟩ = t := Fin.ext rfl
  refine (congrArg₂ (scoreBlk m c) hq hj).trans ?_
  unfold scoreBlk
  rw [hpt]

/-- What point t writes back to output 4 is block t of the slab-by-slab array. -/
private theorem flushed4_eq (c : Dev nD) (t : Fin cfg0.N) :
    (dats m 0 c).flushed 4 t = ((cfg0.win 4).blk t).view.read (Elt Ideal)
      (fun i : S16x8x128.Idx => scoreBlk m c ⟨(i 0).val, (i 0).isLt⟩ (ix3 (0 : Fin 1) ⟨(i 1).val, (i 1).isLt⟩ ⟨(i 2).val, (i 2).isLt⟩)) := by
  show (cfg0.win 4).cut (grid0.coords t) ((dats m 0 c).after 4 t) = _
  rw [after0_4]
  unfold out0_4
  rw [View.canon_unit_zero hz3]
  simp only [View.ld_unit_zero (S := S32x512x128) hz3, View.ld_unit_zero (S := S32x512) hz2,
    View.ld_unit_zero (S := S128x128) hz2]
  obtain ⟨e0, e1, e2⟩ := idx4 t
  have hN : t.val < 16 := lt_of_lt_of_eq t.isLt (show cfg0.N = 16 from N_0)
  funext j
  refine (scoreBlk_at m c t hN (((cfg0.win 4).blk t).view.emb j) j ?_ ?_ ?_).symm
  · show win0_4.index t (0 : Fin 3) * 1 + 1 * (j 0).val = t.val
    have hj0 : (j 0).val < 1 := (j 0).isLt
    omega
  · show win0_4.index t (1 : Fin 3) * 8 + 1 * (j 1).val = (j 1).val
    omega
  · show win0_4.index t (2 : Fin 3) * 128 + 1 * (j 2).val = (j 2).val
    omega

/-- An index of output 4 is in point t's block iff each coordinate is in the block's range on its axis. -/
private theorem mem_blk4 (t : Fin cfg0.N) (i : S16x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v1_0).slice (win0_4.rect t)).set ↔ _
  rw [View.set_slice_whole, Rect.mem_set_unit]
  exact Iff.rfl

/-- The 16 slabs tile output 4: index (q, r, l) lies in point q's block. -/
private theorem cover4 (i : S16x8x128.Idx) :
    ∃ t : Fin cfg0.N, (cfg0.win 4).flush t = true ∧ i ∈ ((cfg0.win 4).blk t).view.set := by
  have h0 : (i 0).val < 16 := (i 0).isLt
  have h1 : (i 1).val < 8 := (i 1).isLt
  have h2 : (i 2).val < 128 := (i 2).isLt
  refine ⟨pt ⟨(i 0).val, h0⟩, flush0_4 _, ?_⟩
  obtain ⟨e0, e1, e2⟩ := idx4 (pt ⟨(i 0).val, h0⟩)
  have hv : (pt ⟨(i 0).val, h0⟩).val = (i 0).val := rfl
  rw [mem_blk4]
  intro a
  match a with
  | ⟨0, _⟩ =>
    show win0_4.index (pt ⟨(i 0).val, h0⟩) (0 : Fin 3) * 1 ≤ (i 0).val
      ∧ (i 0).val < win0_4.index (pt ⟨(i 0).val, h0⟩) (0 : Fin 3) * 1 + 1
    omega
  | ⟨1, _⟩ =>
    show win0_4.index (pt ⟨(i 0).val, h0⟩) (1 : Fin 3) * 8 ≤ (i 1).val
      ∧ (i 1).val < win0_4.index (pt ⟨(i 0).val, h0⟩) (1 : Fin 3) * 8 + 8
    omega
  | ⟨2, _⟩ =>
    show win0_4.index (pt ⟨(i 0).val, h0⟩) (2 : Fin 3) * 128 ≤ (i 2).val
      ∧ (i 2).val < win0_4.index (pt ⟨(i 0).val, h0⟩) (2 : Fin 3) * 128 + 128
    omega

/-- Slab q of output 5 at a point's block index is what the point stored there. -/
private theorem maskBlk_at (c : Dev nD) (t : Fin cfg0.N) (hN : t.val < 16) (i : S16x8x128.Idx) (j : S1x8x128.Idx)
    (h0 : (i 0).val = t.val) (h1 : (i 1).val = (j 1).val) (h2 : (i 2).val = (j 2).val) :
    maskBlk m c ⟨(i 0).val, (i 0).isLt⟩ (ix3 (0 : Fin 1) ⟨(i 1).val, (i 1).isLt⟩ ⟨(i 2).val, (i 2).isLt⟩)
      = k0_pay2 (F := Ideal) (k0_pay3 (F := Ideal) (iblk m c 2 t)) j := by
  have hq : (⟨(i 0).val, (i 0).isLt⟩ : Fin 16) = ⟨t.val, hN⟩ := Fin.ext h0
  have hj : ix3 (0 : Fin 1) ⟨(i 1).val, (i 1).isLt⟩ ⟨(i 2).val, (i 2).isLt⟩ = j := by
    funext a; apply Fin.ext
    match a with
    | ⟨0, _⟩ =>
      show (0 : Nat) = (j 0).val
      have hj0 : (j 0).val < 1 := (j 0).isLt
      omega
    | ⟨1, _⟩ => exact h1
    | ⟨2, _⟩ => exact h2
  have hpt : pt ⟨t.val, hN⟩ = t := Fin.ext rfl
  refine (congrArg₂ (maskBlk m c) hq hj).trans ?_
  unfold maskBlk
  rw [hpt]

/-- What point t writes back to output 5 is block t of the slab-by-slab array. -/
private theorem flushed5_eq (c : Dev nD) (t : Fin cfg0.N) :
    (dats m 0 c).flushed 5 t = ((cfg0.win 5).blk t).view.read (Elt Ideal)
      (fun i : S16x8x128.Idx => maskBlk m c ⟨(i 0).val, (i 0).isLt⟩ (ix3 (0 : Fin 1) ⟨(i 1).val, (i 1).isLt⟩ ⟨(i 2).val, (i 2).isLt⟩)) := by
  show (cfg0.win 5).cut (grid0.coords t) ((dats m 0 c).after 5 t) = _
  rw [after0_5]
  unfold out0_5
  rw [View.canon_unit_zero hz3]
  simp only [View.ld_unit_zero (S := S32x512x128) hz3, View.ld_unit_zero (S := S32x512) hz2,
    View.ld_unit_zero (S := S128x128) hz2]
  obtain ⟨e0, e1, e2⟩ := idx5 t
  have hN : t.val < 16 := lt_of_lt_of_eq t.isLt (show cfg0.N = 16 from N_0)
  funext j
  refine (maskBlk_at m c t hN (((cfg0.win 5).blk t).view.emb j) j ?_ ?_ ?_).symm
  · show win0_5.index t (0 : Fin 3) * 1 + 1 * (j 0).val = t.val
    have hj0 : (j 0).val < 1 := (j 0).isLt
    omega
  · show win0_5.index t (1 : Fin 3) * 8 + 1 * (j 1).val = (j 1).val
    omega
  · show win0_5.index t (2 : Fin 3) * 128 + 1 * (j 2).val = (j 2).val
    omega

/-- An index of output 5 is in point t's block iff each coordinate is in the block's range on its axis. -/
private theorem mem_blk5 (t : Fin cfg0.N) (i : S16x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v1_1).slice (win0_5.rect t)).set ↔ _
  rw [View.set_slice_whole, Rect.mem_set_unit]
  exact Iff.rfl

/-- The 16 slabs tile output 5: index (q, r, l) lies in point q's block. -/
private theorem cover5 (i : S16x8x128.Idx) :
    ∃ t : Fin cfg0.N, (cfg0.win 5).flush t = true ∧ i ∈ ((cfg0.win 5).blk t).view.set := by
  have h0 : (i 0).val < 16 := (i 0).isLt
  have h1 : (i 1).val < 8 := (i 1).isLt
  have h2 : (i 2).val < 128 := (i 2).isLt
  refine ⟨pt ⟨(i 0).val, h0⟩, flush0_5 _, ?_⟩
  obtain ⟨e0, e1, e2⟩ := idx5 (pt ⟨(i 0).val, h0⟩)
  have hv : (pt ⟨(i 0).val, h0⟩).val = (i 0).val := rfl
  rw [mem_blk5]
  intro a
  match a with
  | ⟨0, _⟩ =>
    show win0_5.index (pt ⟨(i 0).val, h0⟩) (0 : Fin 3) * 1 ≤ (i 0).val
      ∧ (i 0).val < win0_5.index (pt ⟨(i 0).val, h0⟩) (0 : Fin 3) * 1 + 1
    omega
  | ⟨1, _⟩ =>
    show win0_5.index (pt ⟨(i 0).val, h0⟩) (1 : Fin 3) * 8 ≤ (i 1).val
      ∧ (i 1).val < win0_5.index (pt ⟨(i 0).val, h0⟩) (1 : Fin 3) * 8 + 8
    omega
  | ⟨2, _⟩ =>
    show win0_5.index (pt ⟨(i 0).val, h0⟩) (2 : Fin 3) * 128 ≤ (i 2).val
      ∧ (i 2).val < win0_5.index (pt ⟨(i 0).val, h0⟩) (2 : Fin 3) * 128 + 128
    omega

/-- The output arrays after the run: slab t of each is what point t stored. -/
theorem arr4_eq (c : Dev nD) :
    (dats m 0 c).arrAt 4 cfg0.N
      = fun i : S16x8x128.Idx => scoreBlk m c ⟨(i 0).val, (i 0).isLt⟩ (ix3 (0 : Fin 1) ⟨(i 1).val, (i 1).isLt⟩ ⟨(i 2).val, (i 2).isLt⟩) := by
  exact (dats m 0 c).arrAt_eq_of_cover 4 _ (fun t _ => flushed4_eq m c t) cover4

theorem arr5_eq (c : Dev nD) :
    (dats m 0 c).arrAt 5 cfg0.N
      = fun i : S16x8x128.Idx => maskBlk m c ⟨(i 0).val, (i 0).isLt⟩ (ix3 (0 : Fin 1) ⟨(i 1).val, (i 1).isLt⟩ ⟨(i 2).val, (i 2).isLt⟩) := by
  exact (dats m 0 c).arrAt_eq_of_cover 5 _ (fun t _ => flushed5_eq m c t) cover5

end Cert.KernelIdeal.CrfK

end
-- ==== Proof.KEmit.lean ====
/-
  The kernel body's emission and mask payloads at the ideal values, over one tile's loaded blocks.

  The body builds a one-hot of each position's tag by comparing a lane iota with the tag, keeps the emission under it and
  zero elsewhere, sums the 128 lanes (one term survives: the emission at the tag), multiplies by the mask and sums the
  tile; the mask payload is the tile's sum of the mask.  Both are stored as splats of one scalar.
-/
import proofs.«431321_j35562329211832_2_alg».proof.Proof.Gen.KernelIdeal.Skeleton
import proofs.«431321_j35562329211832_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.CrfK

open Cert.KernelIdeal Cert.KernelIdeal.Gen Cert.Crf Idealize.ShloMosaic Idealize.ShloMosaic.ValueIdx

/-! ## Re-indexing a block with a leading unit axis -/

/-- An index of a [1, a, b] block is its two free coordinates. -/
private def idxEquiv1ab {a b : Nat} : (⟨3, ![1, a, b]⟩ : Shape).Idx ≃ Fin a × Fin b where
  toFun i := (i 1, i 2)
  invFun p := ix3 (0 : Fin 1) p.1 p.2
  left_inv i :=
    (congrArg (fun u : Fin 1 => ix3 u (i 1) (i 2)) (Subsingleton.elim (0 : Fin 1) (i 0))).trans (eq_ix3 i).symm
  right_inv _ := rfl

/-- So a sum over such a block is the double sum over the two free coordinates. -/
private theorem sum_idx_1ab {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

/-! ## The scalar read out of a total reduction -/

/-- A sum-reduction into the one-element shape, viewed [1, 1, 1] and read at its origin, is the sum over every source
    index. -/
private theorem total_read {s : Shape} {axes : List (Fin s.rank)} (src : FVec Ideal s .f32)
    (h : s.Reduces axes S1) (hφ : FKind.Formats FTy.f32) (hacc : (0x00000000#32 : BitVec 32) = 0x00000000#32) :
    extractAt ![0, 0, 0] (shapeCast S1x1x1 (multiReduction .add axes S1 src 0x00000000#32 h hφ hacc) shapeCasts_S1_S1x1x1)
      inpos_S1x1x1_p0_0_0 = ∑ i : s.Idx, src i := by
  unfold extractAt
  refine (shapeCast_apply _ shapeCasts_S1_S1x1x1 _ (ix1 (0 : Fin 1)) ?_).trans ?_
  · rw [Shape.rowMajor_val_one, Shape.rowMajor_val_three]; rfl
  · exact (Ideal.multiReduction_add_total src _ h (by decide) hφ hacc (ix1 (0 : Fin 1)))

/-! ## The one-hot comparison -/

/-- The equality comparison's bit is set exactly when the words are equal. -/
private theorem cmpi_eq_one_iff {w : Nat} (a b : BitVec w) : IntOp.cmpi .eq a b = 1#1 ↔ a = b := by
  unfold IntOp.cmpi
  show BitVec.ofBool (a == b) = 1#1 ↔ a = b
  by_cases h : a = b
  · have hb : (a == b) = true := beq_iff_eq.mpr h
    rw [hb]
    exact ⟨fun _ => h, fun _ => rfl⟩
  · have hb : (a == b) = false := beq_eq_false_iff_ne.mpr h
    rw [hb]
    exact ⟨fun e => absurd e (by decide), fun e => absurd e h⟩

/-- A lane number equals a tag word below 128 exactly when it is the tag's lane. -/
private theorem ofNat_eq_iff_tag (t : BitVec 32) (ht : t.toNat < 128) (k : Fin 128) :
    BitVec.ofNat 32 k.val = t ↔ k = tagOf t := by
  have hk : k.val % 2 ^ 32 = k.val := Nat.mod_eq_of_lt (lt_trans k.isLt (by norm_num))
  constructor
  · intro h
    apply Fin.ext
    rw [tagOf_val_of_lt t ht, ← h, BitVec.toNat_ofNat, hk]
  · intro h
    apply BitVec.eq_of_toNat_eq
    rw [BitVec.toNat_ofNat, hk, h, tagOf_val_of_lt t ht]

/-- The lane sum under the one-hot of a tag keeps the one term at the tag's lane. -/
private theorem lane_sum (f : Fin 128 → EReal) (t : BitVec 32) (ht : t.toNat < 128) :
    ∑ k : Fin 128, Scalar.select (IntOp.cmpi .eq (BitVec.ofNat 32 k.val) t) (f k) (0 : EReal) = f (tagOf t) := by
  refine Eq.trans (Finset.sum_congr rfl fun k _ => ?_) (sum_onehot f (tagOf t))
  by_cases hk : k = tagOf t
  · rw [if_pos hk, (cmpi_eq_one_iff _ _).mpr ((ofNat_eq_iff_tag t ht k).mpr hk), select_one]
  · rw [if_neg hk,
      eq_zero_of_ne_one (fun h => hk ((ofNat_eq_iff_tag t ht k).mp ((cmpi_eq_one_iff _ _).mp h))), select_zero]

/-- The comparison payload at (b, s, k): lane number k against the tag word of position (b, s). -/
private theorem pay4_apply (x1 : IVec S32x512 32) (b : Fin 32) (s : Fin 512) (k : Fin 128) :
    k0_pay4 (F := Ideal) x1 (ix3 b s k) = IntOp.cmpi .eq (BitVec.ofNat 32 k.val) (x1 (ix2 b s)) := by
  unfold k0_pay4
  refine congrArg₂ (IntOp.cmpi .eq)
    (iota_single_apply .tc S32x512x128 32 2 iota_S32x512x128_d2_w32 (ix3 b s k)) ?_
  refine (broadcastTo_apply _ broadcasts_S32x512x1_S32x512x128 (ix3 b s k) (ix3 b s (0 : Fin 1)) ?_).trans ?_
  · intro a
    match a with
    | ⟨0, _⟩ => rfl
    | ⟨1, _⟩ => rfl
    | ⟨2, _⟩ => rfl
  · exact shapeCast_apply x1 shapeCasts_S32x512_S32x512x1 (ix3 b s (0 : Fin 1)) (ix2 b s) (by
      rw [Shape.rowMajor_val_three, Shape.rowMajor_val_two]
      show b.val * 512 + s.val = (b.val * 512 + s.val) * 1 + 0
      omega)

/-- The index the lane reduction reads at lane k of position (b, s). -/
private theorem lift_ix2 (h : S32x512x128.Reduces [2] S32x512) (b : Fin 32) (s : Fin 512) (k : Fin 128) :
    h.lift (ix2 b s) k = ix3 b s k := by
  funext a
  match a with
  | ⟨0, _⟩ => exact Fin.ext rfl
  | ⟨1, _⟩ => exact Fin.ext rfl
  | ⟨2, _⟩ => exact Fin.ext rfl

/-- The emission payload is the tile's emission sum, when every tag of the tile is a lane number. -/
theorem pay5_eq (x0 : FVec Ideal S32x512x128 .f32) (x1 : IVec S32x512 32) (x2 : FVec Ideal S32x512 .f32)
    (hin : ∀ i, (x1 i).toNat < 128) :
    k0_pay5 (F := Ideal) x0 x1 x2 = emitTile x0 x1 x2 := by
  unfold k0_pay5 k0_pay3
  refine (total_read _ reduces_S1x32x512_S1 (.inl rfl) rfl).trans ?_
  rw [sum_idx_1ab]
  unfold emitTile
  refine Finset.sum_congr rfl fun b _ => Finset.sum_congr rfl fun s _ => ?_
  rw [shapeCast_ab_1ab_apply, mulf_apply, shapeCast_self]
  refine congrArg (· * x2 (ix2 b s)) ?_
  refine (Ideal.multiReduction_add_single _ _ reduces_S32x512x128_S32x512 (.inl rfl) rfl (ix2 b s)).trans ?_
  refine Eq.trans (Finset.sum_congr rfl fun (k : Fin 128) _ => ?_)
    (lane_sum (fun k => x0 (ix3 b s k)) (x1 (ix2 b s)) (hin _))
  refine (congrArg (select (k0_pay4 (F := Ideal) x1) x0 _) (lift_ix2 reduces_S32x512x128_S32x512 b s k)).trans ?_
  rw [select_apply, pay4_apply, broadcast_apply]
  exact congrArg (Scalar.select _ _) Ideal.ofBits_zero_f32

/-- The stored score block is a splat of the emission scalar plus the total of the weighted count matrix. -/
theorem pay1_apply (v16 : Ideal .f32) (v42 : FVec Ideal S1x128x128 .f32) (y : S1x8x128.Idx) :
    k0_pay1 (F := Ideal) v16 v42 y = v16 + ∑ i : S1x128x128.Idx, v42 i := by
  unfold k0_pay1
  exact congrArg (fun t => v16 + t) (total_read v42 reduces_S1x128x128_S1 (.inl rfl) rfl)

/-- The stored mask block is a splat of the tile's mask sum. -/
theorem pay2_apply (x2 : FVec Ideal S32x512 .f32) (y : S1x8x128.Idx) :
    k0_pay2 (F := Ideal) (k0_pay3 (F := Ideal) x2) y = maskTile x2 := by
  unfold k0_pay2 k0_pay3
  refine (total_read _ reduces_S1x32x512_S1 (.inl rfl) rfl).trans ?_
  rw [sum_idx_1ab]
  unfold maskTile
  refine Finset.sum_congr rfl fun b _ => Finset.sum_congr rfl fun s _ => ?_
  rw [shapeCast_ab_1ab_apply, shapeCast_self]

end Cert.KernelIdeal.CrfK

end
-- ==== Proof.KPair.lean ====
/-
  One entry of the kernel's weighted count matrix times the transition table, at the ideal values.

  At (k, j) the transition payload is  (Σ_b Σ_s  w(b, s) · [prev tag(b, s) = k] · [tag(b, s) = j]) · tr[k, j]:
  the roll by one along the sequence reads position s − 1 (position 511 at s = 0), the pair weight w is the product of
  the two masks and of "s is not the first position", a one-hot of a tag over the lanes is 1 on the tag's lane and 0
  elsewhere, a change of float format is the identity, (row, position) flattens to 512·row + position, and the matrix
  product contracts that flattened axis.
-/
import proofs.«431321_j35562329211832_2_alg».proof.Proof.Gen.KernelIdeal.Skeleton
import proofs.«431321_j35562329211832_2_alg».proof.Proof.Spec
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

noncomputable section

namespace Cert.KernelIdeal.CrfK

open Cert.KernelIdeal Cert.KernelIdeal.Gen Cert.Crf Idealize.ShloMosaic Idealize.ShloMosaic.ValueIdx

/-- The position a roll by one reads at position `s`: `s − 1`, and the last position at `s = 0`. -/
def prevPos (s : Fin 512) : Fin 512 := ⟨(s.val + 511) % 512, Nat.mod_lt _ (by decide)⟩

/-- The one-hot of a tag word at lane `k`. -/
def ind (w : BitVec 32) (k : Fin 128) : EReal := if w = BitVec.ofNat 32 k.val then 1 else 0

/-- The weight of the pair (previous position, position `s`) of row `b`: both masks, and zero at the first position. -/
def pairW (x2 : FVec Ideal S32x512 .f32) (b : Fin 32) (s : Fin 512) : EReal :=
  (x2 (ix2 b s) * x2 (ix2 b (prevPos s))) * (if 0 < s.val then (1 : EReal) else 0)

/-- A one-bit condition widened to a word and converted is 1 when the bit is set and 0 otherwise. -/
private theorem bit_to_float (c : BitVec 1) :
    (FloatOps.sitofp .f32 (c.setWidth 32) : Ideal .f32) = if c = 1#1 then (1 : EReal) else 0 := by
  show ((((c.setWidth 32).toInt : ℤ) : ℝ) : EReal) = _
  rw [toInt_setWidth_bit]
  rcases BitVec.eq_zero_or_eq_one c with h | h
  · subst h; simp
  · subst h; simp

/-- The equality test of two words, as a bit. -/
private theorem cmpi_eq_bit (a w : BitVec 32) : IntOp.cmpi .eq a w = if w = a then 1#1 else 0#1 := by
  show BitVec.ofBool (a == w) = _
  by_cases h : w = a
  · subst h; rw [if_pos rfl, beq_self_eq_true]; rfl
  · rw [if_neg h, beq_eq_false_iff_ne.mpr (fun e => h e.symm)]; rfl

/-- The one-hot of a word against a lane number, as a float. -/
private theorem onehot_word (a : Nat) (w : BitVec 32) :
    (FloatOps.sitofp .f32 ((IntOp.cmpi .eq (BitVec.ofNat 32 a) w).setWidth 32) : Ideal .f32)
      = if w = BitVec.ofNat 32 a then (1 : EReal) else 0 := by
  rw [bit_to_float, cmpi_eq_bit]
  by_cases h : w = BitVec.ofNat 32 a
  · rw [if_pos h, if_pos h, if_pos rfl]
  · rw [if_neg h, if_neg h, if_neg (by decide)]

/-- A position below 512, as a signed word, is above zero exactly when it is not the first. -/
private theorem sgt_zero_bit : ∀ s : Fin 512, IntOp.cmpi .sgt (BitVec.ofNat 32 s.val) 0#32 = if 0 < s.val then 1#1 else 0#1 := by
  decide +kernel

/-- "Not the first position", as a float. -/
private theorem notfirst_word (s : Fin 512) :
    (FloatOps.sitofp .f32 ((IntOp.cmpi .sgt (BitVec.ofNat 32 s.val) 0#32).setWidth 32) : Ideal .f32)
      = if 0 < s.val then (1 : EReal) else 0 := by
  rw [bit_to_float, sgt_zero_bit]
  by_cases h : 0 < s.val
  · rw [if_pos h, if_pos h, if_pos rfl]
  · rw [if_neg h, if_neg h, if_neg (by decide)]

/-- A [32,512] array laid along 128 lanes reads its own entry on every lane. -/
private theorem lanes_at {α : Type} (x : S32x512.Idx → α) (b : Fin 32) (s : Fin 512) (j : Fin 128) :
    broadcastTo S32x512x128 (shapeCast S32x512x1 x shapeCasts_S32x512_S32x512x1) broadcasts_S32x512x1_S32x512x128 (ix3 b s j)
      = x (ix2 b s) := by
  refine (broadcastTo_apply _ _ (ix3 b s j) (ix3 b s (0 : Fin 1)) ?_).trans ?_
  · intro a
    match a with
    | ⟨0, _⟩ => rfl
    | ⟨1, _⟩ => rfl
    | ⟨2, _⟩ => rfl
  · refine shapeCast_apply x _ (ix3 b s (0 : Fin 1)) (ix2 b s) ?_
    rw [Shape.rowMajor_val_two, Shape.rowMajor_val_three]
    show b.val * 512 + s.val = (b.val * 512 + s.val) * 1 + 0
    omega

/-- A roll by one along the sequence reads the previous position, the last one at the first. -/
private theorem roll_at {α : Type} (x : S32x512.Idx → α) (b : Fin 32) (s : Fin 512) :
    dynamicRotate 1 1#32 none x rotates_S32x512_d1 (ix2 b s) = x (ix2 b (prevPos s)) := by
  refine dynamicRotate_apply 1 1#32 x _ (ix2 b s) (ix2 b (prevPos s)) ?_
  intro a
  match a with
  | ⟨0, _⟩ => rfl
  | ⟨1, _⟩ =>
    refine Eq.trans ?_ (if_pos (Fin.ext rfl)).symm
    show (s.val + 511) % 512 = (s.val + 512 - (1#32 : BitVec 32).toNat % 512) % 512
    have h1 : (1#32 : BitVec 32).toNat = 1 := rfl
    rw [h1]
    have := s.isLt
    omega

/-- The flattening of (row, position) to 512·row + position, read back. -/
private theorem flat_at {α : Type} (x : S32x512x128.Idx → α) (b : Fin 32) (s : Fin 512) (j : Fin 128)
    (h : 512 * b.val + s.val < 16384) :
    shapeCast S16384x128 x shapeCasts_S32x512x128_S16384x128 (ix2 (⟨512 * b.val + s.val, h⟩ : Fin 16384) j) = x (ix3 b s j) := by
  refine shapeCast_apply x _ _ (ix3 b s j) ?_
  rw [Shape.rowMajor_val_two, Shape.rowMajor_val_three]
  show (b.val * 512 + s.val) * 128 + j.val = (512 * b.val + s.val) * 128 + j.val
  omega

/-- Adding a leading unit axis to a [128,128] array keeps the entries. -/
private theorem addUnit_at {α : Type} (v : S128x128.Idx → α) (k j : Fin 128) :
    shapeCast S1x128x128 v shapeCasts_S128x128_S1x128x128 (ix3 (0 : Fin 1) k j) = v (ix2 k j) := by
  refine (shapeCast_addUnit_apply ![128, 128] v _ (ix3 (0 : Fin 1) k j)).trans (congrArg v ?_)
  funext a
  match a with
  | ⟨0, _⟩ => rfl
  | ⟨1, _⟩ => rfl

/-- A sum over the flattened axis is the double sum over rows and positions. -/
private theorem sum_flat {M : Type} [AddCommMonoid M] (f : Fin 16384 → M) :
    ∑ r, f r = ∑ b : Fin 32, ∑ s : Fin 512,
      f ⟨512 * b.val + s.val, by have := b.isLt; have := s.isLt; omega⟩ := by
  have h := (Equiv.sum_comp (finProdFinEquiv (m := 32) (n := 512)) (f : Fin (32 * 512) → M)).symm
  rw [Fintype.sum_prod_type] at h
  refine h.trans (Finset.sum_congr rfl fun b _ => Finset.sum_congr rfl fun s _ => congrArg f (Fin.ext ?_))
  show s.val + 512 * b.val = 512 * b.val + s.val
  omega

/-- The left operand's index on its contracted axis 0 is the contraction position. -/
private theorem lhs_axis0 (j : S128x128.Idx) (q : dot_S16384x128_S16384x128_S128x128_0_0_1_1_n_n.contr.Idx) :
    (dot_S16384x128_S16384x128_S128x128_0_0_1_1_n_n.lhsIdx j q 0).val = (q ⟨0, by decide⟩).val :=
  DotDims.lhsIdx_val_of_single (d := dot_S16384x128_S16384x128_S128x128_0_0_1_1_n_n) (cl := 0) rfl j q

/-- The left operand's index on its free axis 1 is the result's row. -/
private theorem lhs_axis1 (j : S128x128.Idx) (q : dot_S16384x128_S16384x128_S128x128_0_0_1_1_n_n.contr.Idx) :
    (dot_S16384x128_S16384x128_S128x128_0_0_1_1_n_n.lhsIdx j q 1).val = (j 0).val := by
  simp [DotDims.lhsIdx, dot_S16384x128_S16384x128_S128x128_0_0_1_1_n_n]; rfl

/-- The right operand's index on its contracted axis 0 is the contraction position. -/
private theorem rhs_axis0 (j : S128x128.Idx) (q : dot_S16384x128_S16384x128_S128x128_0_0_1_1_n_n.contr.Idx) :
    (dot_S16384x128_S16384x128_S128x128_0_0_1_1_n_n.rhsIdx j q 0).val = (q ⟨0, by decide⟩).val :=
  DotDims.rhsIdx_val_of_single (d := dot_S16384x128_S16384x128_S128x128_0_0_1_1_n_n) (cr := 0) rfl j q

/-- The right operand's index on its free axis 1 is the result's column. -/
private theorem rhs_axis1 (j : S128x128.Idx) (q : dot_S16384x128_S16384x128_S128x128_0_0_1_1_n_n.contr.Idx) :
    (dot_S16384x128_S16384x128_S128x128_0_0_1_1_n_n.rhsIdx j q 1).val = (j 1).val := by
  simp [DotDims.rhsIdx, dot_S16384x128_S16384x128_S128x128_0_0_1_1_n_n]; rfl

/-- The matrix product into a zero accumulator contracts the first axis of both operands. -/
private theorem matmul_at {φ₁ φ₂ : FTy} (A : FVec Ideal S16384x128 φ₁) (B : FVec Ideal S16384x128 φ₂) (k j : Fin 128) :
    matmul dot_S16384x128_S16384x128_S128x128_0_0_1_1_n_n none A B (constant (F := Ideal) S128x128 .f32 0x00000000#32) (ix2 k j)
      = ∑ r : Fin 16384, A (ix2 r k) * B (ix2 r j) := by
  show FloatOps.matmul dot_S16384x128_S16384x128_S128x128_0_0_1_1_n_n none A B (constant (F := Ideal) S128x128 .f32 0x00000000#32) (ix2 k j) = _
  rw [Ideal.matmul_constant_zero_apply,
    ← Equiv.sum_comp (contrEquiv1 dot_S16384x128_S16384x128_S128x128_0_0_1_1_n_n 16384 rfl rfl).symm]
  refine Finset.sum_congr rfl fun r _ => ?_
  have hr := contrEquiv1_symm_val dot_S16384x128_S16384x128_S128x128_0_0_1_1_n_n 16384 rfl rfl r
  have hl : dot_S16384x128_S16384x128_S128x128_0_0_1_1_n_n.lhsIdx (ix2 k j)
      ((contrEquiv1 dot_S16384x128_S16384x128_S128x128_0_0_1_1_n_n 16384 rfl rfl).symm r) = ix2 r k := by
    funext a; apply Fin.ext
    match a with
    | ⟨0, _⟩ => exact (lhs_axis0 _ _).trans hr
    | ⟨1, _⟩ => exact lhs_axis1 _ _
  have hrr : dot_S16384x128_S16384x128_S128x128_0_0_1_1_n_n.rhsIdx (ix2 k j)
      ((contrEquiv1 dot_S16384x128_S16384x128_S128x128_0_0_1_1_n_n 16384 rfl rfl).symm r) = ix2 r j := by
    funext a; apply Fin.ext
    match a with
    | ⟨0, _⟩ => exact (rhs_axis0 _ _).trans hr
    | ⟨1, _⟩ => exact rhs_axis1 _ _
  rw [hl, hrr]

/-- The one-hot of a [32,512] array of tag words over the 128 lanes, as a float, at (row, position, lane). -/
private theorem onehot_at (w : IVec S32x512 32) (b : Fin 32) (s : Fin 512) (j : Fin 128) :
    (sitofp .f32 (extui 32 (cmpi .eq (iota .tc S32x512x128 32 [2] iota_S32x512x128_d2_w32)
        (broadcastTo S32x512x128 (shapeCast S32x512x1 w shapeCasts_S32x512_S32x512x1) broadcasts_S32x512x1_S32x512x128))
      natLt_1_32) : FVec Ideal S32x512x128 .f32) (ix3 b s j) = ind (w (ix2 b s)) j := by
  show (FloatOps.sitofp .f32 ((IntOp.cmpi .eq (iota .tc S32x512x128 32 [2] iota_S32x512x128_d2_w32 (ix3 b s j))
      (broadcastTo S32x512x128 (shapeCast S32x512x1 w shapeCasts_S32x512_S32x512x1) broadcasts_S32x512x1_S32x512x128
        (ix3 b s j))).setWidth 32) : Ideal .f32) = _
  rw [iota_single_apply, lanes_at]
  exact onehot_word j.val (w (ix2 b s))

/-- "Not the first position" over a [32,512] array, as a float, at (row, position). -/
private theorem notfirst_at (b : Fin 32) (s : Fin 512) :
    (sitofp .f32 (extui 32 (cmpi .sgt (iota .tc S32x512 32 [1] iota_S32x512_d1_w32) (broadcast S32x512 0#32)) natLt_1_32)
      : FVec Ideal S32x512 .f32) (ix2 b s) = if 0 < s.val then (1 : EReal) else 0 := by
  show (FloatOps.sitofp .f32 ((IntOp.cmpi .sgt (iota .tc S32x512 32 [1] iota_S32x512_d1_w32 (ix2 b s)) 0#32).setWidth 32)
      : Ideal .f32) = _
  rw [iota_single_apply]
  exact notfirst_word s

/-- The transition payload at (k, j): the weighted count of pairs (previous tag k, tag j), times the table's entry. -/
theorem pay6_apply (x1 : IVec S32x512 32) (x2 : FVec Ideal S32x512 .f32) (x3 : FVec Ideal S128x128 .f32) (k j : Fin 128) :
    k0_pay6 (F := Ideal) x1 x2 x3 (ix3 (0 : Fin 1) k j)
      = (∑ b : Fin 32, ∑ s : Fin 512, (pairW x2 b s * ind (x1 (ix2 b (prevPos s))) k) * ind (x1 (ix2 b s)) j) * x3 (ix2 k j) := by
  have e3 : k0_pay3 (F := Ideal) x2 = x2 := shapeCast_self x2 _
  unfold k0_pay6
  refine (addUnit_at _ k j).trans ?_
  refine (mulf_apply _ _ _).trans ?_
  refine congrArg (fun t : EReal => t * x3 (ix2 k j)) ?_
  refine (matmul_at _ _ k j).trans ?_
  refine (sum_flat _).trans ?_
  refine Finset.sum_congr rfl fun b _ => Finset.sum_congr rfl fun s _ => ?_
  refine congrArg₂ (fun p q : EReal => p * q) ?_ ?_
  · -- the left operand at (512·b + s, k): the pair weight times the previous tag's one-hot
    refine (flat_at _ b s k _).trans ?_
    refine (truncf_apply (φ := .f32) (ψ := .bf16) _ bitsLt_bf16_f32 _).trans ?_
    refine (mulf_apply _ _ _).trans ?_
    refine congrArg₂ (fun p q : EReal => p * q) ?_ ?_
    · refine (lanes_at _ b s k).trans ?_
      refine (mulf_apply _ _ _).trans ?_
      refine congrArg₂ (fun p q : EReal => p * q) ?_ (notfirst_at b s)
      refine (mulf_apply _ _ _).trans ?_
      refine congrArg₂ (fun p q : EReal => p * q) (congrFun e3 _) ?_
      exact (roll_at _ b s).trans (congrFun e3 _)
    · refine (onehot_at _ b s k).trans ?_
      exact congrArg (fun w => ind w k) (roll_at x1 b s)
  · -- the right operand at (512·b + s, j): the tag's one-hot
    refine (flat_at _ b s j _).trans ?_
    refine (truncf_apply (φ := .f32) (ψ := .bf16) _ bitsLt_bf16_f32 _).trans ?_
    exact onehot_at x1 b s j

end Cert.KernelIdeal.CrfK

end
-- ==== Proof.KTrans.lean ====
/-
  The kernel body's transition payload at the ideal values, over one tile's loaded blocks.

  The body rolls tags and mask by one position along the sequence, masks each (previous, current) pair by both masks and
  by "not the first position", forms the one-hots of previous and current tag over the 128 lanes, flattens (row, position)
  to 16384 rows and contracts them: C[k, j] = Σ_r pair_r · [prev_r = k] · [cur_r = j].  C is multiplied entry by entry
  with the transition table.  Its total is the tile's transition sum (the count-matrix law), the first position of each
  row contributing nothing and position s ≥ 1 pairing with s − 1.
-/
import proofs.«431321_j35562329211832_2_alg».proof.Proof.Gen.KernelIdeal.Skeleton
import proofs.«431321_j35562329211832_2_alg».proof.Proof.Spec
import proofs.«431321_j35562329211832_2_alg».proof.Proof.KPair
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

noncomputable section

namespace Cert.KernelIdeal.CrfK

open Cert.KernelIdeal Cert.KernelIdeal.Gen Cert.Crf Idealize.ShloMosaic Idealize.ShloMosaic.ValueIdx

/-- A sum over the indices of a [1, n₁, n₂] array is the double sum over its last two coordinates. -/
private def idxEquiv3one {n1 n2 : Nat} : (⟨3, ![1, n1, n2]⟩ : Shape).Idx ≃ Fin n1 × Fin n2 where
  toFun i := (i 1, i 2)
  invFun p := ix3 (0 : Fin 1) p.1 p.2
  left_inv i := by
    have h0 : (i 0).val < 1 := (i 0).isLt
    have hz : i 0 = (0 : Fin 1) := Fin.ext (by simpa using h0)
    have h := eq_ix3 i
    rw [hz] at h
    exact h.symm
  right_inv _ := rfl

private theorem sum_idx3one {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquiv3one (n1 := n1) (n2 := n2)).symm f, Fintype.sum_prod_type]
  rfl

/-- For a tag word below 128, the one-hot at lane `k` is 1 exactly when the word's lane number is `k`. -/
private theorem ind_eq (w : BitVec 32) (h : w.toNat < 128) (k : Fin 128) :
    ind w k = if tagOf w = k then (1 : EReal) else 0 := by
  have hk := k.isLt
  have hiff : (w = BitVec.ofNat 32 k.val) ↔ (tagOf w = k) := by
    constructor
    · intro hw
      apply Fin.ext
      rw [tagOf_val_of_lt w h]
      have h2 : w.toNat = (BitVec.ofNat 32 k.val).toNat := congrArg BitVec.toNat hw
      rw [BitVec.toNat_ofNat] at h2
      rw [h2]
      exact Nat.mod_eq_of_lt (by omega)
    · intro hk'
      apply BitVec.eq_of_toNat_eq
      rw [BitVec.toNat_ofNat, ← hk', tagOf_val_of_lt w h]
      exact (Nat.mod_eq_of_lt (by omega)).symm
  unfold ind
  by_cases hc : tagOf w = k
  · rw [if_pos hc, if_pos (hiff.mpr hc)]
  · rw [if_neg hc, if_neg (fun h' => hc (hiff.mp h'))]

/-- The pair weight is non-negative when the mask is. -/
private theorem pairW_nonneg (x2 : FVec Ideal S32x512 .f32) (hm : ∀ i, 0 ≤ x2 i) (b : Fin 32) (s : Fin 512) :
    0 ≤ pairW x2 b s := by
  unfold pairW
  refine EReal.mul_nonneg (EReal.mul_nonneg (hm _) (hm _)) ?_
  by_cases hs : 0 < s.val
  · rw [if_pos hs]; exact zero_le_one
  · rw [if_neg hs]

/-- The first position of a row carries no pair. -/
private theorem pairW_zero (x2 : FVec Ideal S32x512 .f32) (b : Fin 32) : pairW x2 b (0 : Fin 512) = 0 := by
  unfold pairW
  rw [if_neg (by simp), mul_zero]

/-- The roll by one reads position `s` at position `s + 1`. -/
private theorem prevPos_succ (s : Fin 511) : prevPos s.succ = s.castSucc := by
  apply Fin.ext
  have hs := s.isLt
  show (s.succ.val + 511) % 512 = s.castSucc.val
  rw [Fin.val_succ, Fin.coe_castSucc]
  omega

/-- At a later position the pair weight is the product of the two masks. -/
private theorem pairW_succ (x2 : FVec Ideal S32x512 .f32) (b : Fin 32) (s : Fin 511) :
    pairW x2 b s.succ = x2 (ix2 b s.succ) * x2 (ix2 b s.castSucc) := by
  unfold pairW
  rw [prevPos_succ, if_pos (by rw [Fin.val_succ]; omega), mul_one]

/-- The total of the transition payload is the tile's transition sum, when every tag of the tile is a lane number and the
    mask is non-negative. -/
theorem pay6_total (x1 : IVec S32x512 32) (x2 : FVec Ideal S32x512 .f32) (x3 : FVec Ideal S128x128 .f32)
    (hin : ∀ i, (x1 i).toNat < 128) (hm : ∀ i, 0 ≤ x2 i) :
    ∑ i : S1x128x128.Idx, k0_pay6 (F := Ideal) x1 x2 x3 i = transTile x1 x2 x3 := by
  -- the total as a double sum over (k, j), each entry a weighted count times the table's entry
  refine (sum_idx3one (fun i => k0_pay6 (F := Ideal) x1 x2 x3 i)).trans ?_
  have hentry : ∀ k j : Fin 128, k0_pay6 (F := Ideal) x1 x2 x3 (ix3 (0 : Fin 1) k j)
      = (∑ r : Fin 32 × Fin 512,
          (pairW x2 r.1 r.2 * (if tagOf (x1 (ix2 r.1 (prevPos r.2))) = k then (1 : EReal) else 0))
            * (if tagOf (x1 (ix2 r.1 r.2)) = j then (1 : EReal) else 0)) * x3 (ix2 k j) := by
    intro k j
    rw [pay6_apply, Fintype.sum_prod_type]
    refine congrArg (· * x3 (ix2 k j)) ?_
    refine Finset.sum_congr rfl fun b _ => Finset.sum_congr rfl fun s _ => ?_
    rw [ind_eq _ (hin _), ind_eq _ (hin _)]
  refine (Finset.sum_congr rfl fun k _ => Finset.sum_congr rfl fun j _ => hentry k j).trans ?_
  -- the count-matrix law
  refine (count_matrix (fun r : Fin 32 × Fin 512 => pairW x2 r.1 r.2) (fun r => pairW_nonneg x2 hm r.1 r.2)
    (fun r => tagOf (x1 (ix2 r.1 (prevPos r.2)))) (fun r => tagOf (x1 (ix2 r.1 r.2)))
    (fun k j => x3 (ix2 k j))).trans ?_
  -- position 0 of each row contributes nothing, position s + 1 pairs with s
  rw [Fintype.sum_prod_type]
  unfold transTile
  refine Finset.sum_congr rfl fun b _ => ?_
  rw [Fin.sum_univ_succ]
  show pairW x2 b 0 * _ + _ = _
  rw [pairW_zero, zero_mul, zero_add]
  refine Finset.sum_congr rfl fun s _ => ?_
  show pairW x2 b s.succ * x3 (ix2 (tagOf (x1 (ix2 b (prevPos s.succ)))) (tagOf (x1 (ix2 b s.succ)))) = _
  rw [pairW_succ, prevPos_succ, mul_comm]

end Cert.KernelIdeal.CrfK

end
-- ==== Proof.KRun.lean ====
/-
  The idealized kernel program's run, read to its result.

  After the region the host takes entry (t, 0, 0) of each of the 16 slabs of the two outputs, sums the 16 scores and the 16
  mask sums, and divides.  Slab t holds tile t's emission sum plus its transition sum, and tile t's mask sum; the tiles
  partition the batch rows, so the two host sums are the totals and the quotient is the CRF score.
-/
import proofs.«431321_j35562329211832_2_alg».proof.Proof.KArr
import proofs.«431321_j35562329211832_2_alg».proof.Proof.KEmit
import proofs.«431321_j35562329211832_2_alg».proof.Proof.KTrans
import Idealize.ShloMosaic.PureOps.Ideal.Laws
import Idealize.ShloMosaic.Lib.IdealHost
import Idealize.ShloMosaic.Lib.ValueIdxRank1

noncomputable section

namespace Cert.KernelIdeal.CrfK

open Cert.KernelIdeal Cert.KernelIdeal.Gen Cert.Crf Idealize.ShloMosaic Idealize.ShloMosaic.TcCoe Idealize.ShloMosaic.ValueIdx
open Idealize.SL.Sem

variable (m : (ℓ : Loc nD τ sig) → Buf (Elt Ideal) ℓ)

/-- The host operations after the region, as one function of the two output arrays. -/
def tailOf (a4 a5 : FVec Ideal S16x8x128 .f32) : FVec Ideal S_ .f32 :=
  Host.divf (F := Ideal)
    (Host.reduceAdd (F := Ideal) (shapeCast S16 (extractStridedSlice S16x1x1 ![0, 0, 0] a4 slices_S16x8x128_S16x1x1_0_0_0) shapeCasts_S16x1x1_S16)
      (constant (F := Ideal) S_ .f32 0x00000000#32) reducesTo_S16_S_d0 h_S_)
    (Host.reduceAdd (F := Ideal) (shapeCast S16 (extractStridedSlice S16x1x1 ![0, 0, 0] a5 slices_S16x8x128_S16x1x1_0_0_0) shapeCasts_S16x1x1_S16)
      (constant (F := Ideal) S_ .f32 0x00000000#32) reducesTo_S16_S_d0 h_S_)

/-- What @main's result buffer holds after the lines that follow the region: the tail of the region's two output arrays. -/
theorem tail_result (c : Dev nD) :
    Pipeline.afterTail₀ cfgs (dats m) 0 (V0 m) [hostOps1] c main_v8
      = tailOf ((dats m 0 c).arrAt 4 cfg0.N) ((dats m 0 c).arrAt 5 cfg0.N) := by
  -- the region's two outputs are windows 4 and 5 of the pipeline: read back, they are the proof data's arrays
  have h4 : Pipeline.withArrays spec0 c (V0 m c) (fun w => (dats m 0 c).arrAt w cfg0.N) (Proc.devRef .tc main_v1_0)
      = (dats m 0 c).arrAt 4 cfg0.N := Pipeline.withArrays_arr spec0 launch0.win.arr_inj c _ _ 4
  have h5 : Pipeline.withArrays spec0 c (V0 m c) (fun w => (dats m 0 c).arrAt w cfg0.N) (Proc.devRef .tc main_v1_1)
      = (dats m 0 c).arrAt 5 cfg0.N := Pipeline.withArrays_arr spec0 launch0.win.arr_inj c _ _ 5
  unfold Pipeline.afterTail₀
  show StableHlo.after hostOps1 (Pipeline.withArrays spec0 c (V0 m c) (fun w => (dats m 0 c).arrAt w cfg0.N)) (Proc.devRef .tc main_v8) = _
  after_results
  rw [h4, h5]
  rfl

/-- The host's sum of a [16, 8, 128] array's 16 slabs, each read at its entry (t, 0, 0): the slice keeps those entries, the
    reshape lists them along one axis, and the sum from zero adds them. -/
private theorem slabSum (a : FVec Ideal S16x8x128 .f32) (j : S_.Idx) :
    Host.reduceAdd (F := Ideal) (shapeCast S16 (extractStridedSlice S16x1x1 ![0, 0, 0] a slices_S16x8x128_S16x1x1_0_0_0) shapeCasts_S16x1x1_S16)
      (constant (F := Ideal) S_ .f32 0x00000000#32) reducesTo_S16_S_d0 h_S_ j
      = ∑ t : Fin 16, a (ix3 t (0 : Fin 8) (0 : Fin 128)) := by
  refine (hostReduceAdd_apply _ _ reducesTo_S16_S_d0 h_S_ j).trans ?_
  refine (Ideal.hostReduceAdd_total reducesTo_S16_S_d0 (fun b => b.elim0) _ _ j).trans ?_
  rw [constant_apply, Ideal.ofBits_zero_f32, zero_add]
  refine (Equiv.sum_comp (idxEquiv1 (n := 16)).symm _).symm.trans ?_
  refine Finset.sum_congr rfl fun t _ => ?_
  show shapeCast S16 (extractStridedSlice S16x1x1 ![0, 0, 0] a slices_S16x8x128_S16x1x1_0_0_0) shapeCasts_S16x1x1_S16 (ix1 t) = _
  refine (shapeCast_apply _ shapeCasts_S16x1x1_S16 (ix1 t) (ix3 t (0 : Fin 1) (0 : Fin 1)) ?_).trans ?_
  · rw [Shape.rowMajor_val_three, Shape.rowMajor_val_one]
    show (t.val * 1 + 0) * 1 + 0 = t.val
    omega
  · exact extractStridedSlice_apply ![0, 0, 0] a slices_S16x8x128_S16x1x1_0_0_0 (ix3 t (0 : Fin 1) (0 : Fin 1))
      (ix3 t (0 : Fin 8) (0 : Fin 128)) (fun b => match b with
        | ⟨0, _⟩ => by show t.val = 0 + t.val; omega
        | ⟨1, _⟩ => by show (0 : Nat) = 0 + 0; rfl
        | ⟨2, _⟩ => by show (0 : Nat) = 0 + 0; rfl)

/-- The mask the region sees is a count read as a number: it is never negative. -/
private theorem maskF_nonneg (c : Dev nD) (i : S512x512.Idx) : 0 ≤ maskF m c i := by
  show (0 : EReal) ≤ (((argM m c i).toNat : ℝ) : EReal)
  exact EReal.coe_nonneg.mpr (Nat.cast_nonneg _)

/-- Every entry of slab t of the score output is tile t's emission sum plus its transition sum. -/
private theorem scoreBlk_apply (c : Dev nD) (hin : ∀ i, (argT m c i).toNat < 128) (t : Fin 16) (y : S1x8x128.Idx) :
    scoreBlk m c t y
      = emitTile (blkE (argE m c) t) (blkT (argT m c) t) (blkT (maskF m c) t)
        + transTile (blkT (argT m c) t) (blkT (maskF m c) t) (argR m c) := by
  show k0_pay1 (F := Ideal) (k0_pay5 (F := Ideal) (eblk m c (pt t)) (tblk m c (pt t)) (mblk m c (pt t)))
      (k0_pay6 (F := Ideal) (tblk m c (pt t)) (mblk m c (pt t)) (rblk m c (pt t))) y = _
  rw [eblk_eq m c t, tblk_eq m c t, mblk_eq m c t, rblk_eq m c t, pay1_apply,
    pay5_eq (blkE (argE m c) t) (blkT (argT m c) t) (blkT (maskF m c) t) (fun i => hin _),
    pay6_total (blkT (argT m c) t) (blkT (maskF m c) t) (argR m c) (fun i => hin _) (fun i => maskF_nonneg m c _)]

/-- Every entry of slab t of the mask output is tile t's mask sum. -/
private theorem maskBlk_apply (c : Dev nD) (t : Fin 16) (y : S1x8x128.Idx) :
    maskBlk m c t y = maskTile (blkT (maskF m c) t) := by
  show k0_pay2 (F := Ideal) (k0_pay3 (F := Ideal) (mblk m c (pt t))) y = _
  rw [mblk_eq m c t, pay2_apply]

/-- The tail of the two output arrays is the CRF score of the arguments, when every tag is a lane number. -/
theorem tail_value (c : Dev nD) (hin : ∀ i, (argT m c i).toNat < 128) :
    tailOf ((dats m 0 c).arrAt 4 cfg0.N) ((dats m 0 c).arrAt 5 cfg0.N)
      = score (argE m c) (argT m c) (maskF m c) (argR m c) := by
  rw [arr4_eq m c, arr5_eq m c]
  unfold tailOf score
  -- numerator: the 16 slabs' entries are the tiles' emission and transition sums, which add up to the two totals
  have hnum : ∀ j : S_.Idx, Host.reduceAdd (F := Ideal) (shapeCast S16 (extractStridedSlice S16x1x1 ![0, 0, 0]
        (fun i : S16x8x128.Idx => scoreBlk m c ⟨(i 0).val, (i 0).isLt⟩ (ix3 (0 : Fin 1) ⟨(i 1).val, (i 1).isLt⟩ ⟨(i 2).val, (i 2).isLt⟩))
        slices_S16x8x128_S16x1x1_0_0_0) shapeCasts_S16x1x1_S16)
      (constant (F := Ideal) S_ .f32 0x00000000#32) reducesTo_S16_S_d0 h_S_ j
      = emitTotal (argE m c) (argT m c) (maskF m c) + transTotal (argT m c) (maskF m c) (argR m c) := fun j => by
    refine (slabSum _ j).trans ?_
    rw [emitTotal_eq_tiles, transTotal_eq_tiles, ← Finset.sum_add_distrib]
    exact Finset.sum_congr rfl fun t _ => scoreBlk_apply m c hin t _
  -- denominator: the 16 slabs' entries are the tiles' mask sums
  have hden : ∀ j : S_.Idx, Host.reduceAdd (F := Ideal) (shapeCast S16 (extractStridedSlice S16x1x1 ![0, 0, 0]
        (fun i : S16x8x128.Idx => maskBlk m c ⟨(i 0).val, (i 0).isLt⟩ (ix3 (0 : Fin 1) ⟨(i 1).val, (i 1).isLt⟩ ⟨(i 2).val, (i 2).isLt⟩))
        slices_S16x8x128_S16x1x1_0_0_0) shapeCasts_S16x1x1_S16)
      (constant (F := Ideal) S_ .f32 0x00000000#32) reducesTo_S16_S_d0 h_S_ j
      = maskTotal (maskF m c) := fun j => by
    refine (slabSum _ j).trans ?_
    rw [maskTotal_eq_tiles]
    exact Finset.sum_congr rfl fun t _ => maskBlk_apply m c t _
  rw [funext hnum, funext hden]

/-- The idealized kernel program runs, leaves its arguments as they were, and returns the CRF score. -/
theorem kernel_run (ρ : Dev nD → PrngReg) (hin : ∀ c i, (argT m c i).toNat < 128) :
    θ_run (defs (F := Ideal)) (onTc (τ := τ) (main (F := Ideal))) ⟨m, fun _ => 0, ρ⟩ (fun r => ∀ c : Dev nD,
      r.2.mem ((c.tc : Thread nD τ).loc main_v8) = score (argE m c) (argT m c) (maskF m c) (argR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  -- the result buffer is no window's array: it ends as the lines after the region leave it; the arguments as launched
  (θ_run defs _ _).mono (fun _ h c =>
    ⟨((h c).2 main_v8 (Pipeline.mem_restRefs_of main_v8 (by decide) (by decide))).trans
        ((tail_result m c).trans (tail_value m c (hin c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩) (run_main m ρ)

end Cert.KernelIdeal.CrfK

end
-- ==== Proof.RefEmit.lean ====
/-
  The reference's emission sum and mask count at the ideal values.

  jnp's take_along_axis wraps a negative index by the axis length, reads the element there and fills where the wrapped
  index is outside [0, 127].  For a tag that is a lane number nothing wraps and nothing is filled: the gathered value is
  the emission at the tag.  The host's sums start from zero.
-/
import proofs.«431321_j35562329211832_2_alg».proof.Proof.RefRead
import proofs.«431321_j35562329211832_2_alg».proof.Proof.Spec
import Idealize.ShloMosaic.PureOps.Ideal.Laws
import Idealize.ShloMosaic.Lib.ValueIdx
import Idealize.ShloMosaic.Lib.IdealHost
import Idealize.ShloMosaic.Lib.StableHlo.Predicate

noncomputable section

namespace Cert.ReferenceIdeal.CrfR

open Cert.ReferenceIdeal Cert.ReferenceIdeal.Gen Cert.ReferenceIdeal.ReadP Cert.Crf Idealize.ShloMosaic Idealize.ShloMosaic.ValueIdx

/-! ## Where the layout operations read -/

/-- Position (b, s) of the flat [512, 512] array is position (b, s, 0) of the [512, 512, 1] one. -/
private theorem idx_v3 (b s : Fin 512) : idx_main_v3 (ix2 b s) = ix3 b s (0 : Fin 1) := by
  have hb := b.isLt
  have hs := s.isLt
  funext a
  match a with
  | ⟨0, _⟩ => exact Fin.ext (by show (b.val * 512 + s.val) / 512 = b.val; omega)
  | ⟨1, _⟩ => exact Fin.ext (by show (b.val * 512 + s.val) / 1 % 512 = s.val; omega)
  | ⟨2, _⟩ => rfl

/-- Position (b, s, 0, 0) of the [512, 512, 1, 1] array is position (b, s, 0) of the [512, 512, 1] one. -/
private theorem idx_c5 (b s : Fin 512) :
    idx_main_call0_v5 (ix4 b s (0 : Fin 1) (0 : Fin 1)) = ix3 b s (0 : Fin 1) := by
  have hb := b.isLt
  have hs := s.isLt
  funext a
  match a with
  | ⟨0, _⟩ => exact Fin.ext (by show (((b.val * 512 + s.val) * 1 + 0) * 1 + 0) / 512 = b.val; omega)
  | ⟨1, _⟩ => exact Fin.ext (by show (((b.val * 512 + s.val) * 1 + 0) * 1 + 0) / 1 % 512 = s.val; omega)
  | ⟨2, _⟩ => rfl

/-- Position (b, s, 0) of the broadcast tags is position (b, s) of the tags. -/
private theorem idx_v1 (b s : Fin 512) : idx_main_v1 (ix3 b s (0 : Fin 1)) = ix2 b s := by
  funext a
  match a with
  | ⟨0, _⟩ => rfl
  | ⟨1, _⟩ => rfl

/-! ## The index word: a lane number is not wrapped, and passes the range test -/

section Word

variable (tg : IVec S512x512 32) (hin : ∀ i, (tg i).toNat < 128)
include hin

/-- The wrapped index at (b, s) is the tag itself: the tag is not negative. -/
private theorem word_at (b s : Fin 512) :
    val_main_call0_v5 (F := Ideal) tg (ix4 b s (0 : Fin 1) (0 : Fin 1)) = tg (ix2 b s) := by
  rw [val_main_call0_v5_apply, idx_c5, val_main_call0_v4_apply, val_main_call0_v1_apply, val_main_v1_apply, idx_v1,
    val_main_call0_v0_apply, val_main_call0_c_apply]
  have h := hin (ix2 b s)
  have h0 : (0#32 : BitVec 32).toNat = 0 := by decide
  have hc : IntOp.cmpi .slt (tg (ix2 b s)) 0#32 = 0#1 :=
    eq_zero_of_ne_one (fun e => by
      have := (StableHlo.Predicate.slt_iff_toNat (by omega) (by omega)).mp e
      omega)
  rw [hc, select_zero]

/-- The range test 0 ≤ index ≤ 127 holds at (b, s). -/
private theorem inrange_at (b s : Fin 512) :
    val_main_call0_v11 (F := Ideal) tg (ix4 b s (0 : Fin 1) (0 : Fin 1)) = 1#1 := by
  rw [val_main_call0_v11_apply, val_main_call0_v7_apply, val_main_call0_v10_apply, word_at tg hin,
    val_main_call0_v6_apply, val_main_call0_c_2_apply, val_main_call0_v9_apply, val_main_call0_v8_apply,
    val_main_call0_c_1_apply]
  have h := hin (ix2 b s)
  have h0 : (0#32 : BitVec 32).toNat = 0 := by decide
  have h127 : (127#32 : BitVec 32).toNat = 127 := by decide
  rw [(StableHlo.Predicate.sge_iff_toNat (by omega) (by omega)).mpr (by omega),
    (StableHlo.Predicate.sle_iff_toNat (by omega) (by omega)).mpr (by omega)]
  rfl

end Word

/-! ## The reduction of the range test over its axis of size one -/

private theorem red_fact : S512x512x1x1.Reduces [3] S512x512x1 := by decide

/-- The one position of the reduced axis over (b, s, 0) is (b, s, 0, 0). -/
private theorem lift_at (b s : Fin 512) (k : Fin (S512x512x1x1.size 3)) :
    red_fact.lift (ix3 b s (0 : Fin 1)) k = ix4 b s (0 : Fin 1) (0 : Fin 1) := by
  have hk : k.val < 1 := k.isLt
  funext c
  apply Fin.ext
  rw [Shape.Reduces.lift_val]
  match c with
  | ⟨0, _⟩ => rfl
  | ⟨1, _⟩ => rfl
  | ⟨2, _⟩ => rfl
  | ⟨3, _⟩ => show k.val = 0; omega

/-- A fold of "and" from 1 over 1s is 1. -/
private theorem fold_andi_ones {ι : Type} (S : Finset ι) :
    S.fold IntOp.andi (1#1 : BitVec 1) (fun _ => (1#1 : BitVec 1)) = 1#1 := by
  induction S using Finset.cons_induction with
  | empty => rfl
  | cons a S ha ih => rw [Finset.fold_cons, ih]; rfl

section Gather

variable (E : FVec Ideal S512x512x128 .f32) (tg : IVec S512x512 32) (hin : ∀ i, (tg i).toNat < 128)
include hin

/-- The reduced range test holds at (b, s, 0). -/
private theorem keep_at (b s : Fin 512) :
    val_main_call0_v12 (F := Ideal) tg (ix3 b s (0 : Fin 1)) = 1#1 := by
  unfold val_main_call0_v12
  rw [Host.reduce_eq_fold_single IntOp.andi _ _ reducesTo_S512x512x1x1_S512x512x1_d3 red_fact h_S_]
  have hfun : (val_main_call0_v11 (F := Ideal) tg ∘ red_fact.lift (ix3 b s (0 : Fin 1))) = fun _ => (1#1 : BitVec 1) := by
    funext k
    show val_main_call0_v11 (F := Ideal) tg (red_fact.lift (ix3 b s (0 : Fin 1)) k) = 1#1
    rw [lift_at, inrange_at tg hin]
  rw [hfun, val_main_call0_c_3_apply]
  exact fold_andi_ones _

/-- The gather at (b, s, 0) reads the emission at the tag: rows b and s by the batching axes, and on the tag axis the
    index word read signed and clamped into [0, 127], which is the tag's lane number. -/
private theorem gather_at (b s : Fin 512) :
    val_main_call0_v13 (F := Ideal) E tg (ix3 b s (0 : Fin 1)) = E (ix3 b s (tagOf (tg (ix2 b s)))) := by
  unfold val_main_call0_v13
  have hw := word_at tg hin b s
  generalize val_main_call0_v5 (F := Ideal) tg = y at hw
  unfold Host.gather
  congr 1
  funext a
  apply Fin.ext
  match a with
  | ⟨0, _⟩ =>
    show gather_S512x512x128_S512x512x1x1_S512x512x1_n_2_01_01_2_3_111.start (ix3 b s (0 : Fin 1)) y 0
        + gather_S512x512x128_S512x512x1x1_S512x512x1_n_2_01_01_2_3_111.batchCoord (ix3 b s (0 : Fin 1)) 0
        + gather_S512x512x128_S512x512x1x1_S512x512x1_n_2_01_01_2_3_111.offCoord (ix3 b s (0 : Fin 1)) 0
        = b.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    show gather_S512x512x128_S512x512x1x1_S512x512x1_n_2_01_01_2_3_111.start (ix3 b s (0 : Fin 1)) y 1
        + gather_S512x512x128_S512x512x1x1_S512x512x1_n_2_01_01_2_3_111.batchCoord (ix3 b s (0 : Fin 1)) 1
        + gather_S512x512x128_S512x512x1x1_S512x512x1_n_2_01_01_2_3_111.offCoord (ix3 b s (0 : Fin 1)) 1
        = s.val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨2, _⟩ =>
    have h := hin (ix2 b s)
    show gather_S512x512x128_S512x512x1x1_S512x512x1_n_2_01_01_2_3_111.start (ix3 b s (0 : Fin 1)) y 2
        + gather_S512x512x128_S512x512x1x1_S512x512x1_n_2_01_01_2_3_111.batchCoord (ix3 b s (0 : Fin 1)) 2
        + gather_S512x512x128_S512x512x1x1_S512x512x1_n_2_01_01_2_3_111.offCoord (ix3 b s (0 : Fin 1)) 2
        = (tagOf (tg (ix2 b s))).val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S512x512x128_S512x512x1x1_S512x512x1_n_2_01_01_2_3_111.startIndexMap from
      List.mem_singleton.mpr rfl)]
    have hsi : gather_S512x512x128_S512x512x1x1_S512x512x1_n_2_01_01_2_3_111.siIdx (ix3 b s (0 : Fin 1))
        ⟨List.idxOf (2 : Fin 3) gather_S512x512x128_S512x512x1x1_S512x512x1_n_2_01_01_2_3_111.startIndexMap,
          List.idxOf_lt_length_iff.2 (List.mem_singleton.mpr rfl)⟩ = ix4 b s (0 : Fin 1) (0 : Fin 1) := by
      funext c; refine Fin.ext ?_
      match c with
      | ⟨0, _⟩ => rfl
      | ⟨1, _⟩ => rfl
      | ⟨2, _⟩ => rfl
      | ⟨3, _⟩ => rfl
    rw [hsi, hw, StableHlo.Predicate.toInt_eq_toNat_of_lt (by omega), Int.toNat_natCast, tagOf_val_of_lt _ h]
    show min (tg (ix2 b s)).toNat (128 - 1) = (tg (ix2 b s)).toNat
    omega

/-- take_along_axis at (b, s, 0) is the emission at the tag. -/
private theorem take_at (b s : Fin 512) :
    val_main_v2 (F := Ideal) E tg (ix3 b s (0 : Fin 1)) = E (ix3 b s (tagOf (tg (ix2 b s)))) := by
  rw [val_main_v2_apply, keep_at tg hin, gather_at E tg hin, select_one]

end Gather

/-- The reference's emission score is the emission total, when every tag is a lane number. -/
theorem emit_value (E : FVec Ideal S512x512x128 .f32) (tg : IVec S512x512 32) (mk : IVec S512x512 1)
    (hin : ∀ i, (tg i).toNat < 128) :
    val_main_v5 (F := Ideal) E tg mk = fun _ => emitTotal E tg (uitofp (F := Ideal) .f32 mk) := by
  funext i
  rw [val_main_v5_apply, val_main_cst_apply]
  refine (congrArg (· + _) Ideal.ofBits_zero_f32).trans ?_
  rw [zero_add, sum_idx2]
  unfold emitTotal
  refine Finset.sum_congr rfl (fun b _ => Finset.sum_congr rfl (fun s _ => ?_))
  rw [val_main_v4_apply, val_main_v3_apply, idx_v3, take_at E tg hin]
  rfl

/-- The reference's divisor is the mask total. -/
theorem mask_value (mk : IVec S512x512 1) :
    val_main_v28 (F := Ideal) mk = fun _ => maskTotal (uitofp (F := Ideal) .f32 mk) := by
  funext i
  rw [val_main_v28_apply, val_main_cst_4_apply]
  refine (congrArg (· + _) Ideal.ofBits_zero_f32).trans ?_
  rw [zero_add, sum_idx2]
  rfl

end Cert.ReferenceIdeal.CrfR

end
-- ==== Proof.RefTrans.lean ====
/-
  The reference's transition sum at the ideal values.

  `transitions[tags[:, :-1], tags[:, 1:]]` lowers to a gather whose start index at (b, s) is the pair
  (wrap tags[b, s], wrap tags[b, s+1]), laid side by side by a concatenate, each component read signed and clamped to the
  table.  For tags that are lane numbers nothing wraps or clamps: the gathered value is the table's entry at the pair.
-/
import proofs.«431321_j35562329211832_2_alg».proof.Proof.RefRead
import proofs.«431321_j35562329211832_2_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

noncomputable section

namespace Cert.ReferenceIdeal.CrfR

open Cert.ReferenceIdeal Cert.ReferenceIdeal.Gen Cert.ReferenceIdeal.ReadP Cert.Crf Idealize.ShloMosaic Idealize.ShloMosaic.ValueIdx

/-! ## Words that are lane numbers -/

/-- On a lane number the index wrap (add the axis length when the word is negative) keeps the word: read signed it
    is not below zero. -/
private theorem wrap_keep (w : BitVec 32) (h : w.toNat < 128) :
    Scalar.select (IntOp.cmpi .slt w 0#32) (IntOp.addi w 128#32) w = w := by
  have hz : IntOp.cmpi .slt w 0#32 = 0#1 := by
    refine eq_zero_of_ne_one fun h1 => ?_
    have h2 := (StableHlo.Predicate.slt_iff_toNat (a := w) (b := 0#32) (by omega) (by decide)).mp h1
    exact absurd h2 (by simp)
  rw [hz, select_zero]

/-- A lane number read signed and clamped to the table's last row is the lane. -/
private theorem clamp_lane (w : BitVec 32) (h : w.toNat < 128) : min w.toInt.toNat 127 = (tagOf w).val := by
  rw [StableHlo.Predicate.toInt_eq_toNat_of_lt (by omega), Int.toNat_natCast, tagOf_val_of_lt w h]
  omega

/-! ## The slices' indices at explicit coordinates -/

private theorem idx6_at (b : Fin 512) (s : Fin 511) : idx_main_v6 (ix2 b s) = ix2 b s.succ := by
  funext a
  match a with
  | ⟨0, _⟩ => rfl
  | ⟨1, _⟩ => exact Fin.ext (by show 1 + s.val = s.val + 1; omega)

private theorem idx7_at (b : Fin 512) (s : Fin 511) : idx_main_v7 (ix2 b s) = ix2 b s.castSucc := by
  funext a
  match a with
  | ⟨0, _⟩ => rfl
  | ⟨1, _⟩ => rfl

private theorem idx9_at (b : Fin 512) (s : Fin 511) : idx_main_v9 (ix2 b s) = ix2 b s.castSucc := by
  funext a
  match a with
  | ⟨0, _⟩ => rfl
  | ⟨1, _⟩ => rfl

private theorem idx10_at (b : Fin 512) (s : Fin 511) : idx_main_v10 (ix2 b s) = ix2 b s.succ := by
  funext a
  match a with
  | ⟨0, _⟩ => rfl
  | ⟨1, _⟩ => exact Fin.ext (by show 1 + s.val = s.val + 1; omega)

/-! ## The stages at explicit coordinates -/

/-- The pair weight at (b, s): the mask at s + 1 times the mask at s. -/
private theorem v8_at (mk : IVec S512x512 1) (b : Fin 512) (s : Fin 511) :
    val_main_v8 (F := Ideal) mk (ix2 b s)
      = uitofp (F := Ideal) .f32 mk (ix2 b s.succ) * uitofp (F := Ideal) .f32 mk (ix2 b s.castSucc) := by
  rw [val_main_v8_apply, val_main_v6_apply, val_main_v7_apply, val_main_v0_apply, val_main_v0_apply, idx6_at, idx7_at]
  rfl

/-- The wrapped previous tag at (b, s) is the tag at s. -/
private theorem v15_at (tg : IVec S512x512 32) (hin : ∀ i, (tg i).toNat < 128) (b : Fin 512) (s : Fin 511) :
    val_main_v15 (F := Ideal) tg (ix2 b s) = tg (ix2 b s.castSucc) := by
  rw [val_main_v15_apply, val_main_v12_apply, val_main_v14_apply, val_main_v9_apply, val_main_v11_apply,
    val_main_c_apply, val_main_v13_apply, val_main_c_0_apply, idx9_at]
  exact wrap_keep _ (hin _)

/-- The wrapped current tag at (b, s) is the tag at s + 1. -/
private theorem v20_at (tg : IVec S512x512 32) (hin : ∀ i, (tg i).toNat < 128) (b : Fin 512) (s : Fin 511) :
    val_main_v20 (F := Ideal) tg (ix2 b s) = tg (ix2 b s.succ) := by
  rw [val_main_v20_apply, val_main_v17_apply, val_main_v19_apply, val_main_v10_apply, val_main_v16_apply,
    val_main_c_1_apply, val_main_v18_apply, val_main_c_2_apply, idx10_at]
  exact wrap_keep _ (hin _)

/-- Component 0 of the start index at (b, s) is the wrapped previous tag. -/
private theorem v23_at0 (tg : IVec S512x512 32) (b : Fin 512) (s : Fin 511) :
    val_main_v23 (F := Ideal) tg (ix3 b s (0 : Fin 2)) = val_main_v15 (F := Ideal) tg (ix2 b s) := by
  unfold val_main_v23
  refine (concatenate_pair_apply_left (2 : Fin 3) (val_main_v21 (F := Ideal) tg) (val_main_v22 (F := Ideal) tg)
    concatenates_S512x511x1_S512x511x1_S512x511x2_d2 (ix3 b s (0 : Fin 2)) rfl (ix3 b s (0 : Fin 1)) ?_).trans ?_
  · intro c
    match c with
    | ⟨0, _⟩ => rfl
    | ⟨1, _⟩ => rfl
    | ⟨2, _⟩ => rfl
  · rw [val_main_v21_apply]
    congr 1
    funext c
    match c with
    | ⟨0, _⟩ => rfl
    | ⟨1, _⟩ => rfl

/-- Component 1 of the start index at (b, s) is the wrapped current tag. -/
private theorem v23_at1 (tg : IVec S512x512 32) (b : Fin 512) (s : Fin 511) :
    val_main_v23 (F := Ideal) tg (ix3 b s (1 : Fin 2)) = val_main_v20 (F := Ideal) tg (ix2 b s) := by
  unfold val_main_v23
  refine (concatenate_pair_apply_right (2 : Fin 3) (val_main_v21 (F := Ideal) tg) (val_main_v22 (F := Ideal) tg)
    concatenates_S512x511x1_S512x511x1_S512x511x2_d2 (ix3 b s (1 : Fin 2)) rfl rfl (ix3 b s (0 : Fin 1)) ?_ ?_).trans ?_
  · intro c hc
    match c with
    | ⟨0, _⟩ => rfl
    | ⟨1, _⟩ => rfl
    | ⟨2, _⟩ => exact absurd rfl hc
  · rfl
  · rw [val_main_v22_apply]
    congr 1
    funext c
    match c with
    | ⟨0, _⟩ => rfl
    | ⟨1, _⟩ => rfl

/-! ## The gather at explicit coordinates -/

/-- Coordinate 0 of the operand index at (b, s): table axis 0 is a start-index axis, collapsed and not a batching
    axis, so the coordinate is component 0 of the start index at (b, s), read signed and clamped to the last row. -/
private theorem gather_coord0 (idx : IVec S512x511x2 32) (b : Fin 512) (s : Fin 511) :
    gather_S128x128_S512x511x2_S512x511_n_01_n_n_01_2_11.start (ix2 b s) idx (0 : Fin 2)
      + gather_S128x128_S512x511x2_S512x511_n_01_n_n_01_2_11.batchCoord (ix2 b s) (0 : Fin 2)
      + gather_S128x128_S512x511x2_S512x511_n_01_n_n_01_2_11.offCoord (ix2 b s) (0 : Fin 2)
      = min (idx (ix3 b s (0 : Fin 2))).toInt.toNat 127 := by
  have hob : gather_S128x128_S512x511x2_S512x511_n_01_n_n_01_2_11.operandBatchingDims = [] := rfl
  have hcoll : gather_S128x128_S512x511x2_S512x511_n_01_n_n_01_2_11.collapsedSliceDims = [0, 1] := rfl
  have hsim : gather_S128x128_S512x511x2_S512x511_n_01_n_n_01_2_11.startIndexMap = [0, 1] := rfl
  have hb : (0 : Fin 2) ∉ gather_S128x128_S512x511x2_S512x511_n_01_n_n_01_2_11.operandBatchingDims := by
    rw [hob]; exact List.not_mem_nil
  have hm : (0 : Fin 2) ∈ gather_S128x128_S512x511x2_S512x511_n_01_n_n_01_2_11.startIndexMap := by
    rw [hsim]; decide
  have hk : (0 : Fin 2) ∉ gather_S128x128_S512x511x2_S512x511_n_01_n_n_01_2_11.sKept := fun h =>
    ((GatherDims.mem_sKept _ _).mp h).1 (by rw [hcoll]; decide)
  rw [GatherDims.batchCoord_eq_zero _ _ _ hb, GatherDims.offCoord_eq_zero _ _ _ hk, Nat.add_zero]
  unfold GatherDims.start
  rw [dif_pos hm]
  have hsi : gather_S128x128_S512x511x2_S512x511_n_01_n_n_01_2_11.siIdx (ix2 b s)
      ⟨List.idxOf (0 : Fin 2) gather_S128x128_S512x511x2_S512x511_n_01_n_n_01_2_11.startIndexMap, List.idxOf_lt_length_iff.2 hm⟩ = ix3 b s (0 : Fin 2) := by
    funext c; refine Fin.ext ?_
    match c with
    | ⟨0, _⟩ => rfl
    | ⟨1, _⟩ => rfl
    | ⟨2, _⟩ => rfl
  rw [hsi]
  rfl

/-- Coordinate 1 of the operand index at (b, s): table axis 1 is a start-index axis, collapsed and not a batching
    axis, so the coordinate is component 1 of the start index at (b, s), read signed and clamped to the last row. -/
private theorem gather_coord1 (idx : IVec S512x511x2 32) (b : Fin 512) (s : Fin 511) :
    gather_S128x128_S512x511x2_S512x511_n_01_n_n_01_2_11.start (ix2 b s) idx (1 : Fin 2)
      + gather_S128x128_S512x511x2_S512x511_n_01_n_n_01_2_11.batchCoord (ix2 b s) (1 : Fin 2)
      + gather_S128x128_S512x511x2_S512x511_n_01_n_n_01_2_11.offCoord (ix2 b s) (1 : Fin 2)
      = min (idx (ix3 b s (1 : Fin 2))).toInt.toNat 127 := by
  have hob : gather_S128x128_S512x511x2_S512x511_n_01_n_n_01_2_11.operandBatchingDims = [] := rfl
  have hcoll : gather_S128x128_S512x511x2_S512x511_n_01_n_n_01_2_11.collapsedSliceDims = [0, 1] := rfl
  have hsim : gather_S128x128_S512x511x2_S512x511_n_01_n_n_01_2_11.startIndexMap = [0, 1] := rfl
  have hb : (1 : Fin 2) ∉ gather_S128x128_S512x511x2_S512x511_n_01_n_n_01_2_11.operandBatchingDims := by
    rw [hob]; exact List.not_mem_nil
  have hm : (1 : Fin 2) ∈ gather_S128x128_S512x511x2_S512x511_n_01_n_n_01_2_11.startIndexMap := by
    rw [hsim]; decide
  have hk : (1 : Fin 2) ∉ gather_S128x128_S512x511x2_S512x511_n_01_n_n_01_2_11.sKept := fun h =>
    ((GatherDims.mem_sKept _ _).mp h).1 (by rw [hcoll]; decide)
  rw [GatherDims.batchCoord_eq_zero _ _ _ hb, GatherDims.offCoord_eq_zero _ _ _ hk, Nat.add_zero]
  unfold GatherDims.start
  rw [dif_pos hm]
  have hsi : gather_S128x128_S512x511x2_S512x511_n_01_n_n_01_2_11.siIdx (ix2 b s)
      ⟨List.idxOf (1 : Fin 2) gather_S128x128_S512x511x2_S512x511_n_01_n_n_01_2_11.startIndexMap, List.idxOf_lt_length_iff.2 hm⟩ = ix3 b s (1 : Fin 2) := by
    funext c; refine Fin.ext ?_
    match c with
    | ⟨0, _⟩ => rfl
    | ⟨1, _⟩ => rfl
    | ⟨2, _⟩ => rfl
  rw [hsi]
  rfl

/-- The pair gather at (b, s): both table axes are start-index axes and both are collapsed, so the operand index is the
    start index (b, s, ·) itself, each component read signed and clamped to the table's 128 rows. -/
private theorem gather_pair (x : FVec Ideal S128x128 .f32) (idx : IVec S512x511x2 32) (b : Fin 512) (s : Fin 511)
    (p q : Fin 128) (hp : min (idx (ix3 b s (0 : Fin 2))).toInt.toNat 127 = p.val)
    (hq : min (idx (ix3 b s (1 : Fin 2))).toInt.toNat 127 = q.val) :
    Host.gather gather_S128x128_S512x511x2_S512x511_n_01_n_n_01_2_11 x idx (ix2 b s) = x (ix2 p q) := by
  unfold Host.gather
  congr 1
  funext a
  refine Fin.ext ?_
  match a with
  | ⟨0, _⟩ => exact (gather_coord0 idx b s).trans hp
  | ⟨1, _⟩ => exact (gather_coord1 idx b s).trans hq

/-- The gathered value at (b, s) is the table's entry at (tag at s, tag at s + 1). -/
private theorem v24_at (tg : IVec S512x512 32) (tr : FVec Ideal S128x128 .f32) (hin : ∀ i, (tg i).toNat < 128)
    (b : Fin 512) (s : Fin 511) :
    val_main_v24 (F := Ideal) tg tr (ix2 b s)
      = tr (ix2 (tagOf (tg (ix2 b s.castSucc))) (tagOf (tg (ix2 b s.succ)))) := by
  unfold val_main_v24
  refine gather_pair tr (val_main_v23 (F := Ideal) tg) b s _ _ ?_ ?_
  · rw [v23_at0, v15_at tg hin]
    exact clamp_lane _ (hin _)
  · rw [v23_at1, v20_at tg hin]
    exact clamp_lane _ (hin _)

/-- The reference's transition score is the transition total, when every tag is a lane number. -/
theorem trans_value (tg : IVec S512x512 32) (mk : IVec S512x512 1) (tr : FVec Ideal S128x128 .f32)
    (hin : ∀ i, (tg i).toNat < 128) :
    val_main_v26 (F := Ideal) tg mk tr = fun _ => transTotal tg (uitofp (F := Ideal) .f32 mk) tr := by
  funext i
  rw [val_main_v26_apply, val_main_cst_3_apply]
  show Ideal.ofBits .f32 0x00000000#32 + _ = _
  rw [Ideal.ofBits_zero_f32, zero_add, sum_idx2]
  unfold transTotal
  refine Finset.sum_congr rfl fun b _ => Finset.sum_congr rfl fun s _ => ?_
  rw [val_main_v25_apply, Ideal.mulf_def, v24_at tg tr hin, v8_at]

end Cert.ReferenceIdeal.CrfR

end
-- ==== Proof.RefVal.lean ====
/-
  The reference's result at the ideal values is the CRF score of its arguments.
-/
import proofs.«431321_j35562329211832_2_alg».proof.Proof.RefEmit
import proofs.«431321_j35562329211832_2_alg».proof.Proof.RefTrans

noncomputable section

namespace Cert.ReferenceIdeal.CrfR

open Cert.ReferenceIdeal Cert.ReferenceIdeal.Gen Cert.ReferenceIdeal.ReadP Cert.Crf Idealize.ShloMosaic Idealize.ShloMosaic.ValueIdx

/-- Emission score plus transition score, over the mask total. -/
theorem ref_value (E : FVec Ideal S512x512x128 .f32) (tg : IVec S512x512 32) (mk : IVec S512x512 1)
    (tr : FVec Ideal S128x128 .f32) (hin : ∀ i, (tg i).toNat < 128) :
    val_main_v29 (F := Ideal) E tg mk tr = score E tg (uitofp (F := Ideal) .f32 mk) tr := by
  unfold val_main_v29 val_main_v27
  rw [emit_value E tg mk hin, trans_value tg mk tr hin, mask_value mk]
  rfl

end Cert.ReferenceIdeal.CrfR

end
-- ==== Proof.PreDecode.lean ====
/-
  What the precondition says of the tags: every tag word, read signed, lies in [0, 128), so read unsigned it is a lane
  number below 128.

  The precondition is a conjunction of three `all`s; the third is over the one-bit array
  (0 ≤ tags) ∧ (tags < 128), both comparisons signed.  A conjunction of bits is 1 only if both are, an `all` that is 1 had
  a 1 at every index, and a 32-bit word whose signed value is in [0, 128) has that same unsigned value.
-/
import proofs.«431321_j35562329211832_2_alg».proof.Pre_finite_inputs
import proofs.«431321_j35562329211832_2_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

/-- A 32-bit word whose signed value lies in [0, 128) is below 128 read unsigned. -/
theorem toNat_lt_of_toInt (w : BitVec 32) (h0 : (0 : Int) ≤ w.toInt) (h1 : w.toInt < 128) : w.toNat < 128 := by
  rw [BitVec.toInt_eq_toNat_cond] at h0 h1
  have hw : w.toNat < 2 ^ 32 := w.isLt
  split at h0 <;> omega

/-- Under the precondition every tag word is a lane number. -/
theorem tags_lt {F : FTy → Type} [FloatOps F] (E : FVec F S512x512x128 .f32) (tg : IVec S512x512 32) (mk : IVec S512x512 1)
    (tr : FVec F S128x128 .f32) (h : Cert.Pre_finite_inputs.fn (F := F) E tg mk tr = fun _ => 1#1) :
    ∀ i, (tg i).toNat < 128 := by
  intro i
  have h0 := congrFun h ix0
  dsimp only [Cert.Pre_finite_inputs.fn] at h0
  obtain ⟨-, h14⟩ := IntOp.andi_eq_one.1 h0
  haveI : Subsingleton S_.Idx := ⟨fun a b => funext fun d => d.elim0⟩
  have hi := Host.reduce_andi_all _ _ _ _ _ h14 i
  obtain ⟨hge, hlt⟩ := IntOp.andi_eq_one.1 hi
  have hge' := IntOp.cmpi_sge.1 hge
  have hlt' := IntOp.cmpi_slt.1 hlt
  exact toNat_lt_of_toInt (tg i) hge' hlt'

end Cert.Pre_finite_inputs.Decode

end
-- ==== Proof.lean ====
/-
  A linear-chain CRF's path score, tiled over the batch in a kernel, against its jnp reference: equal over the extended
  reals for tags that are lane numbers of the 128-wide tag axis.

  Both programs return (emission score + transition score) / (number of set mask positions).  The kernel takes one tile of
  32 batch rows per grid point: it selects each position's emission by a one-hot of the tag and a lane sum, and gets the
  tile's transition score from a count matrix of (previous tag, tag) pairs contracted with the transition table; the host
  adds the 16 tiles' partial scores and mask counts and divides.  The reference gathers the emission at the tag and the
  table's entry at each adjacent pair of tags and sums over the whole batch.  The sums agree because the tiles partition
  the batch rows, a sum against a one-hot picks one term, and a product distributes over a sum of non-negative counts on
  the extended reals; the final quotient is the same operation on both sides and is never opened.  The precondition's
  range conjunct makes every tag word a lane number, which is what lets the reference's gathers read without wrapping,
  clamping or filling.  The frames are the generated ones; nothing was rewritten when the program was idealized.
-/
import proofs.«431321_j35562329211832_2_alg».proof.Defs
import proofs.«431321_j35562329211832_2_alg».proof.Proof.Gen.Kernel
import proofs.«431321_j35562329211832_2_alg».proof.Proof.Gen.Kernel.Frame
import proofs.«431321_j35562329211832_2_alg».proof.Proof.Gen.KernelIdeal
import proofs.«431321_j35562329211832_2_alg».proof.Proof.Gen.KernelIdeal.Frame
import proofs.«431321_j35562329211832_2_alg».proof.Proof.Gen.ReferenceIdeal
import proofs.«431321_j35562329211832_2_alg».proof.Proof.Gen.Pre_finite_inputs
import proofs.«431321_j35562329211832_2_alg».proof.Proof.RefRun
import proofs.«431321_j35562329211832_2_alg».proof.Proof.RefRead
import proofs.«431321_j35562329211832_2_alg».proof.Proof.KRun
import proofs.«431321_j35562329211832_2_alg».proof.Proof.RefVal
import proofs.«431321_j35562329211832_2_alg».proof.Proof.PreDecode
import Idealize.ShloMosaic.Adequacy
import Idealize.ShloMosaic.Init

noncomputable section

namespace Cert.Proof

open Idealize.ShloMosaic Idealize.ShloMosaic.TcCoe Idealize.SL.Sem

/-- The reference has no kernel: its frame is its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Both idealized programs end at the CRF score of the (agreeing) arguments. -/
theorem algebraic : Cert.algebraic_KernelIdeal_ReferenceIdeal := by
  intro m ρ m' ρ' hpre hagree
  have hin : ∀ c i, (Cert.KernelIdeal.CrfK.argT m c i).toNat < 128 := fun c =>
    Cert.Pre_finite_inputs.Decode.tags_lt (F := Ideal) _ _ _ _ (hpre c)
  refine ⟨fun c => Cert.Crf.score (Cert.KernelIdeal.CrfK.argE m c) (Cert.KernelIdeal.CrfK.argT m c)
      (Cert.KernelIdeal.CrfK.maskF m c) (Cert.KernelIdeal.CrfK.argR m c),
    Cert.KernelIdeal.CrfK.kernel_run m ρ hin, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v29_eq, (hagree c).1, (hagree c).2.1, (hagree c).2.2.1, (hagree c).2.2.2]
  exact Cert.ReferenceIdeal.CrfR.ref_value _ _ _ _ (hin c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
